-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S_ : Shape := ⟨0, ![]⟩

class Facts : Prop where
  bcast_S_S4x2048x16x1 : S_.BroadcastsInDim S4x2048x16x1 (![] : Fin 0 → Fin S4x2048x16x1.rank)
  reducesTo_S4x2048x16x1_S_d0_1_2_3 : S4x2048x16x1.ReducesTo [0, 1, 2, 3] S_
  h_S_ : 0 < S_.numel
  bcast_S_S4x2048x16x256 : S_.BroadcastsInDim S4x2048x16x256 (![] : Fin 0 → Fin S4x2048x16x256.rank)
  reducesTo_S4x2048x16x256_S_d0_1_2_3 : S4x2048x16x256.ReducesTo [0, 1, 2, 3] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S4x2048x16x1 .f32) (main_arg1 : FVec F S4x2048x16x256 .f32) (main_arg2 : FVec F S4x2048x16x256 .f32) (main_arg3 : FVec F S256x64 .f32) (main_arg4 : FVec F S256x64 .f32) : IVec S_ 1 :=
  let main_v0 : FVec F S4x2048x16x1 .f32 := Host.absf main_arg0
  let main_cst : FVec F S_ .f32 := constant S_ .f32 0x7F800000#32
  let main_v1 : FVec F S4x2048x16x1 .f32 := broadcastInDim S4x2048x16x1 ![] bcast_S_S4x2048x16x1 main_cst
  let main_v2 : IVec S4x2048x16x1 1 := cmpf .olt main_v0 main_v1
  let main_c : IVec S_ 1 := constantI S_ 1 1#1
  let main_v3 : IVec S_ 1 := (fun x v => Host.reduce IntOp.andi x v reducesTo_S4x2048x16x1_S_d0_1_2_3 h_S_) main_v2 main_c
  let main_v4 : FVec F S4x2048x16x256 .f32 := Host.absf main_arg1
  let main_cst_0 : FVec F S_ .f32 := constant S_ .f32 0x7F800000#32
  let main_v5 : FVec F S4x2048x16x256 .f32 := broadcastInDim S4x2048x16x256 ![] bcast_S_S4x2048x16x256 main_cst_0
  let main_v6 : IVec S4x2048x16x256 1 := cmpf .olt main_v4 main_v5
  let main_c_1 : IVec S_ 1 := constantI S_ 1 1#1
  let main_v7 : IVec S_ 1 := (fun x v => Host.reduce IntOp.andi x v reducesTo_S4x2048x16x256_S_d0_1_2_3 h_S_) main_v6 main_c_1
  let main_v8 : IVec S_ 1 := andi main_v3 main_v7
  let main_v9 : FVec F S4x2048x16x256 .f32 := Host.absf main_arg2
  let main_cst_2 : FVec F S_ .f32 := constant S_ .f32 0x7F800000#32
  let main_v10 : FVec F S4x2048x16x256 .f32 := broadcastInDim S4x2048x16x256 ![] bcast_S_S4x2048x16x256 main_cst_2
  let main_v11 : IVec S4x2048x16x256 1 := cmpf .olt main_v9 main_v10
  let main_c_3 : IVec S_ 1 := constantI S_ 1 1#1
  let main_v12 : IVec S_ 1 := (fun x v => Host.reduce IntOp.andi x v reducesTo_S4x2048x16x256_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S8192x16x256 : Shape := ⟨3, ![8192, 16, 256]⟩
abbrev S8192x16 : Shape := ⟨2, ![8192, 16]⟩
abbrev S256x16x256 : Shape := ⟨3, ![256, 16, 256]⟩
abbrev S256x16 : Shape := ⟨2, ![256, 16]⟩
abbrev S4096x256 : Shape := ⟨2, ![4096, 256]⟩
abbrev S4096x64 : Shape := ⟨2, ![4096, 64]⟩
abbrev S256x16x64 : Shape := ⟨3, ![256, 16, 64]⟩
abbrev S256x16x16 : Shape := ⟨3, ![256, 16, 16]⟩
abbrev S256x16x1 : Shape := ⟨3, ![256, 16, 1]⟩
abbrev S256x1x16 : Shape := ⟨3, ![256, 1, 16]⟩
abbrev S256 : Shape := ⟨1, ![256]⟩
abbrev S256x1 : Shape := ⟨2, ![256, 1]⟩
abbrev S4x2048x16 : Shape := ⟨3, ![4, 2048, 16]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x16x1, .f32⟩
  | .hbm, ⟨1, _⟩ => ⟨S4x2048x16x256, .f32⟩
  | .hbm, ⟨2, _⟩ => ⟨S4x2048x16x256, .f32⟩
  | .hbm, ⟨3, _⟩ => ⟨S256x64, .f32⟩
  | .hbm, ⟨4, _⟩ => ⟨S256x64, .f32⟩
  | .hbm, ⟨5, _⟩ => ⟨S8192x16x256, .f32⟩
  | .hbm, ⟨6, _⟩ => ⟨S8192x16x256, .f32⟩
  | .hbm, ⟨7, _⟩ => ⟨S8192x16, .f32⟩
  | .hbm, ⟨8, _⟩ => ⟨S8192x16, .f32⟩
  | .hbm, ⟨9, _⟩ => ⟨S4x2048x16, .f32⟩
  | .local _ .vmem, ⟨0, _⟩ => ⟨S256x16x256, .f32⟩
  | .local _ .vmem, ⟨1, _⟩ => ⟨S256x16x256, .f32⟩
  | .local _ .vmem, ⟨2, _⟩ => ⟨S256x16x256, .f32⟩
  | .local _ .vmem, ⟨3, _⟩ => ⟨S256x16x256, .f32⟩
  | .local _ .vmem, ⟨4, _⟩ => ⟨S256x16, .f32⟩
  | .local _ .vmem, ⟨5, _⟩ => ⟨S256x16, .f32⟩
  | .local _ .vmem, ⟨6, _⟩ => ⟨S256x64, .f32⟩
  | .local _ .vmem, ⟨7, _⟩ => ⟨S256x64, .f32⟩
  | .local _ .vmem, ⟨8, _⟩ => ⟨S256x16, .f32⟩
  | .local _ .vmem, ⟨9, _⟩ => ⟨S256x16, .f32⟩
  | _, _ => ⟨S4x2048x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x16x256_S8192x16x256 : S4x2048x16x256.ShapeCasts S8192x16x256
  shapeCasts_S4x2048x16x1_S8192x16 : S4x2048x16x1.ShapeCasts S8192x16
  inb_S256x16x256_S256x16x256_0_0_0 : ∀ a, (![0, 0, 0] : Fin 3 → Nat) a + S256x16x256.size a ≤ S256x16x256.size a
  h_S256x16x256 : 0 < S256x16x256.numel
  shapeCasts_S256x16x256_S256x16x256 : S256x16x256.ShapeCasts S256x16x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x16x256_S4096x256 : S256x16x256.ShapeCasts S4096x256
  shapeCasts_S4096x64_S256x16x64 : S4096x64.ShapeCasts S256x16x64
  reduces_S256x16x16_S256x16 : S256x16x16.Reduces [2] S256x16
  shapeCasts_S256x16_S256x16x1 : S256x16.ShapeCasts S256x16x1
  broadcasts_S256x16x1_S256x16x16 : S256x16x1.Broadcasts S256x16x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x16_S256x1x16 : S256x16.ShapeCasts S256x1x16
  broadcasts_S256x1x16_S256x16x16 : S256x1x16.Broadcasts S256x16x16
  reduces_S256x16_S256 : S256x16.Reduces [1] S256
  shapeCasts_S256_S256x1 : S256.ShapeCasts S256x1
  broadcasts_S256x1_S256x16 : S256x1.Broadcasts S256x16
  shapeCasts_S8192x16_S4x2048x16 : S8192x16.ShapeCasts S4x2048x16
  dot_S4096x256_S256x64_S4096x64_1_0_0_1_n_n_wf : DotDims.WF S4096x256 S256x64 S4096x64 [1] [0] [0] [1] [] []
  dot_S256x16x64_S256x16x64_S256x16x16_2_2_1_1_0_0_wf : DotDims.WF S256x16x64 S256x16x64 S256x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S8192x16x256.size a
  hwx0_0 : ∀ i : grid0.Coords, EltTy.bits .f32 = 32 ∨ (Rect.block (s := S8192x16x256) S256x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x256.size a ≤ S8192x16x256.size a
  hwx0_1 : ∀ i : grid0.Coords, EltTy.bits .f32 = 32 ∨ (Rect.block (s := S8192x16x256) S256x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S8192x16.size a
  hwx0_2 : ∀ i : grid0.Coords, EltTy.bits .f32 = 32 ∨ (Rect.block (s := S8192x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S8192x16.size a
  hwx0_5 : ∀ i : grid0.Coords, EltTy.bits .f32 = 32 ∨ (Rect.block (s := S8192x16) S256x16.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf

abbrev win0_0 : Pipeline.Window sig grid0 :=
  Pipeline.Window.ofSpec (Memref.whole main_v0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S4x2048x16x64 : Shape := ⟨4, ![4, 2048, 16, 64]⟩
abbrev S4x2048x16x16 : Shape := ⟨4, ![4, 2048, 16, 16]⟩
abbrev S_ : Shape := ⟨0, ![]⟩
abbrev S4x2048x16 : Shape := ⟨3, ![4, 2048, 16]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x16x1, .f32⟩
  | .hbm, ⟨1, _⟩ => ⟨S4x2048x16x256, .f32⟩
  | .hbm, ⟨2, _⟩ => ⟨S4x2048x16x256, .f32⟩
  | .hbm, ⟨3, _⟩ => ⟨S256x64, .f32⟩
  | .hbm, ⟨4, _⟩ => ⟨S256x64, .f32⟩
  | .hbm, ⟨5, _⟩ => ⟨S4x2048x16x64, .f32⟩
  | .hbm, ⟨6, _⟩ => ⟨S4x2048x16x64, .f32⟩
  | .hbm, ⟨7, _⟩ => ⟨S4x2048x16x16, .f32⟩
  | .hbm, ⟨8, _⟩ => ⟨S_, .f32⟩
  | .hbm, ⟨9, _⟩ => ⟨S_, .f32⟩
  | .hbm, ⟨10, _⟩ => ⟨S4x2048x16x16, .f32⟩
  | .hbm, ⟨11, _⟩ => ⟨S4x2048x16x16, .f32⟩
  | .hbm, ⟨12, _⟩ => ⟨S_, .f32⟩
  | .hbm, ⟨13, _⟩ => ⟨S4x2048x16, .f32⟩
  | .hbm, ⟨14, _⟩ => ⟨S_, .f32⟩
  | .hbm, ⟨15, _⟩ => ⟨S4x2048x16, .f32⟩
  | .hbm, ⟨16, _⟩ => ⟨S4x2048x16, .f32⟩
  | .hbm, ⟨17, _⟩ => ⟨S4x2048x16x1, .f32⟩
  | .hbm, ⟨18, _⟩ => ⟨S4x2048x16x16, .f32⟩
  | .hbm, ⟨19, _⟩ => ⟨S4x2048x16x16, .f32⟩
  | .hbm, ⟨20, _⟩ => ⟨S4x2048x16x16, .f32⟩
  | .hbm, ⟨21, _⟩ => ⟨S_, .f32⟩
  | .hbm, ⟨22, _⟩ => ⟨S4x2048x16, .f32⟩
  | .hbm, ⟨23, _⟩ => ⟨S4x2048x16x1, .f32⟩
  | .hbm, ⟨24, _⟩ => ⟨S4x2048x16x16, .f32⟩
  | .hbm, ⟨25, _⟩ => ⟨S4x2048x16x16, .f32⟩
  | .hbm, ⟨26, _⟩ => ⟨S4x2048x16x1, .f32⟩
  | .hbm, ⟨27, _⟩ => ⟨S4x2048x16, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x16, .f32⟩
  | .hbm, ⟨35, _⟩ => ⟨S4x2048x16, .f32⟩
  | .hbm, ⟨36, _⟩ => ⟨S4x2048x16, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x16, .f32⟩
  | .hbm, ⟨41, _⟩ => ⟨S4x2048x16, .f32⟩
  | _, _ => ⟨S4x2048x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S4x2048x16x16 : S_.BroadcastsInDim S4x2048x16x16 (![] : Fin 0 → Fin S4x2048x16x16.rank)
  reducesTo_S4x2048x16x16_S4x2048x16_d3 : S4x2048x16x16.ReducesTo [3] S4x2048x16
  h_S_ : 0 < S_.numel
  bcast_S_S4x2048x16 : S_.BroadcastsInDim S4x2048x16 (![] : Fin 0 → Fin S4x2048x16.rank)
  bcast_S4x2048x16_S4x2048x16x1_0_1_2 : S4x2048x16.BroadcastsInDim S4x2048x16x1 (![0, 1, 2] : Fin 3 → Fin S4x2048x16x1.rank)
  bcast_S4x2048x16x1_S4x2048x16x16_0_1_2_3 : S4x2048x16x1.BroadcastsInDim S4x2048x16x16 (![0, 1, 2, 3] : Fin 4 → Fin S4x2048x16x16.rank)
  shapeCasts_S4x2048x16x1_S4x2048x16 : S4x2048x16x1.ShapeCasts S4x2048x16
  reducesTo_S4x2048x16_S4x2048_d2 : S4x2048x16.ReducesTo [2] S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x16_0_1_2 : S4x2048x1.BroadcastsInDim S4x2048x16 (![0, 1, 2] : Fin 3 → Fin S4x2048x16.rank)
  dot_S4x2048x16x256_S256x64_S4x2048x16x64_3_0_012_1_n_n_wf : DotDims.WF S4x2048x16x256 S256x64 S4x2048x16x64 [3] [0] [0, 1, 2] [1] [] []
  dot_S4x2048x16x64_S4x2048x16x64_S4x2048x16x16_3_3_2_2_01_01_wf : DotDims.WF S4x2048x16x64 S4x2048x16x64 S4x2048x16x16 [3] [3] [2] [2] [0, 1] [0, 1]
  dot_S4x2048x16x16_S4x2048x16x1_S4x2048x16x1_3_2_2_3_01_01_wf : DotDims.WF S4x2048x16x16 S4x2048x16x1 S4x2048x16x1 [3] [2] [2] [3] [0, 1] [0, 1]

variable [Facts₀]

def dot_S4x2048x16x256_S256x64_S4x2048x16x64_3_0_012_1_n_n : DotDims S4x2048x16x256 S256x64 S4x2048x16x64 where
  lhsContracting := [3]
  rhsContracting := [0]
  lhsNonContracting := [0, 1, 2]
  rhsNonContracting := [1]
  lhsBatch := []
  rhsBatch := []
  wf := dot_S4x2048x16x256_S256x64_S4x2048x16x64_3_0_012_1_n_n_wf
def dot_S4x2048x16x64_S4x2048x16x64_S4x2048x16x16_3_3_2_2_01_01 : DotDims S4x2048x16x64 S4x2048x16x64 S4x2048x16x16 where
  lhsContracting := [3]
  rhsContracting := [3]
  lhsNonContracting := [2]
  rhsNonContracting := [2]
  lhsBatch := [0, 1]
  rhsBatch := [0, 1]
  wf := dot_S4x2048x16x64_S4x2048x16x64_S4x2048x16x16_3_3_2_2_01_01_wf
def dot_S4x2048x16x16_S4x2048x16x1_S4x2048x16x1_3_2_2_3_01_01 : DotDims S4x2048x16x16 S4x2048x16x1 S4x2048x16x1 where
  lhsContracting := [3]
  rhsContracting := [2]
  lhsNonContracting := [2]
  rhsNonContracting := [3]
  lhsBatch := [0, 1]
  rhsBatch := [0, 1]
  wf := dot_S4x2048x16x16_S4x2048x16x1_S4x2048x16x1_3_2_2_3_01_01_wf

class Facts : Prop extends Facts₀ where

variable [Facts]
-- ==== Proof.BodyTerms.lean ====
/-
  The kernel body's arithmetic in two stretches. The first takes the query block, the key block and the
  two weight matrices to the scaled similarities (two projections, the batched inner product, the
  product with one eighth); the second takes the similarities and the gate block through the softmax
  over key experts and the gate average. Composed they are the body's first payload, by unfolding.
-/
import proofs.«153119_j82197084111013_1_alg».proof.Proof.Gen.KernelIdeal.Skeleton

set_option synthInstance.maxSize 4096

noncomputable section

namespace Cert.KernelIdeal.Body

open Cert.KernelIdeal Cert.KernelIdeal.Gen Idealize.ShloMosaic Idealize.SL.Sem

variable {F : FTy → Type} [FloatOps F]

/-- The scaled similarities of a block of 256 tokens, from the query rows, the key rows and the two
    weight matrices. -/
noncomputable def simTerm (v0 : Vec F S256x16x256 .f32) (v3 : Vec F S256x16x256 .f32) (v6 : Vec F S256x64 .f32) (v8 : Vec F S256x64 .f32) : FVec F S256x16x16 .f32 :=
  have v1 : FVec F S256x16x256 .f32 := shapeCast S256x16x256 v0 shapeCasts_S256x16x256_S256x16x256
  have v2 : FVec F S256x16x256 .bf16 := truncf .bf16 v1 bitsLt_bf16_f32
  have v4 : FVec F S256x16x256 .f32 := shapeCast S256x16x256 v3 shapeCasts_S256x16x256_S256x16x256
  have v5 : FVec F S256x16x256 .bf16 := truncf .bf16 v4 bitsLt_bf16_f32
  have v7 : FVec F S256x64 .bf16 := truncf .bf16 v6 bitsLt_bf16_f32
  have v9 : FVec F S256x64 .bf16 := truncf .bf16 v8 bitsLt_bf16_f32
  have v10 : FVec F S4096x256 .bf16 := shapeCast S4096x256 v2 shapeCasts_S256x16x256_S4096x256
  have v11 : FVec F S4096x256 .bf16 := shapeCast S4096x256 v5 shapeCasts_S256x16x256_S4096x256
  have cst : FVec F S4096x64 .f32 := constant S4096x64 .f32 0x00000000#32
  have v12 : FVec F S4096x64 .f32 := matmul dot_S4096x256_S256x64_S4096x64_1_0_0_1_n_n none v10 v7 cst
  have v13 : FVec F S256x16x64 .f32 := shapeCast S256x16x64 v12 shapeCasts_S4096x64_S256x16x64
  have cst_9 : FVec F S4096x64 .f32 := constant S4096x64 .f32 0x00000000#32
  have v14 : FVec F S4096x64 .f32 := matmul dot_S4096x256_S256x64_S4096x64_1_0_0_1_n_n none v11 v9 cst_9
  have v15 : FVec F S256x16x64 .f32 := shapeCast S256x16x64 v14 shapeCasts_S4096x64_S256x16x64
  have v16 : FVec F S256x16x64 .bf16 := truncf .bf16 v13 bitsLt_bf16_f32
  have v17 : FVec F S256x16x64 .bf16 := truncf .bf16 v15 bitsLt_bf16_f32
  have cst_10 : FVec F S256x16x16 .f32 := constant S256x16x16 .f32 0x00000000#32
  have v18 : FVec F S256x16x16 .f32 := matmul dot_S256x16x64_S256x16x64_S256x16x16_2_2_1_1_0_0 none v16 v17 cst_10
  have cst_11 : F .f32 := Scalar.ofBits .f32 0x3E000000#32
  have v19 : FVec F S256x16x16 .f32 := broadcast S256x16x16 cst_11
  have v20 : FVec F S256x16x16 .f32 := mulf v18 v19
  v20

/-- The gate averaged under each query expert's softmax weights, from the scaled similarities and the
    gate block. -/
noncomputable def gateTerm (v20 : FVec F S256x16x16 .f32) (v32 : Vec F S256x16 .f32) : FVec F S256x16 .f32 :=
  have v21 : FVec F S256x16 .f32 := multiReduction .maximumf [2] S256x16 v20 0xFF800000#32 reduces_S256x16x16_S256x16 (.inl rfl) rfl
  have cst_13 : F .f32 := Scalar.ofBits .f32 0xFF800000#32
  have v22 : FVec F S256x16 .f32 := broadcast S256x16 cst_13
  have v23 : FVec F S256x16 .f32 := maximumf v22 v21
  have v24 : FVec F S256x16x1 .f32 := shapeCast S256x16x1 v23 shapeCasts_S256x16_S256x16x1
  have v25 : FVec F S256x16x16 .f32 := broadcastTo S256x16x16 v24 broadcasts_S256x16x1_S256x16x16
  have v26 : FVec F S256x16x16 .f32 := subf v20 v25
  have v27 : FVec F S256x16x16 .f32 := exp v26
  have v28 : FVec F S256x16 .f32 := multiReduction .add [2] S256x16 v27 0x00000000#32 reduces_S256x16x16_S256x16 (.inl rfl) rfl
  have v29 : FVec F S256x16x1 .f32 := shapeCast S256x16x1 v28 shapeCasts_S256x16_S256x16x1
  have v30 : FVec F S256x16x16 .f32 := broadcastTo S256x16x16 v29 broadcasts_S256x16x1_S256x16x16
  have v31 : FVec F S256x16x16 .f32 := divf v27 v30
  have v33 : FVec F S256x16 .f32 := shapeCast S256x16 v32 shapeCasts_S256x16_S256x16
  have v34 : FVec F S256x1x16 .f32 := shapeCast S256x1x16 v33 shapeCasts_S256x16_S256x1x16
  have v35 : FVec F S256x16x16 .f32 := broadcastTo S256x16x16 v34 broadcasts_S256x1x16_S256x16x16
  have v36 : FVec F S256x16x16 .f32 := mulf v31 v35
  have v37 : FVec F S256x16 .f32 := multiReduction .add [2] S256x16 v36 0x00000000#32 reduces_S256x16x16_S256x16 (.inl rfl) rfl
  v37

set_option maxRecDepth 65536 in
/-- The body's first payload is the second stretch after the first. -/
theorem pay2_split (v0 v3 : Vec F S256x16x256 .f32) (v6 v8 : Vec F S256x64 .f32) (v32 : Vec F S256x16 .f32) :
    k0_pay2 v0 v3 v6 v8 v32 = gateTerm (simTerm v0 v3 v6 v8) v32 := rfl

end Cert.KernelIdeal.Body

end
-- ==== Proof.RouterSpec.lean ====
/-
  The router's arithmetic for ONE token, on the extended reals.

  A token carries sixteen experts. Each expert's query row and key row (256 wide) are projected to 64
  attention coordinates by the two weight matrices; the similarity of query expert q with key expert k
  is the inner product of the two projections, scaled by one eighth; a softmax over k turns each query
  expert's similarities into weights; the gate vector is averaged under those weights; and a second
  softmax over the sixteen averages is the routing weight.

  A softmax row is written the way both programs compute it: the row maximum taken from minus infinity
  (and once more against minus infinity), each entry's exponential of its distance below the maximum,
  divided by the sum of those exponentials.

  The reference divides the similarities by the square root of 64 where the kernel multiplies by 1/8:
  on every extended real these agree, since the root is the nonzero real 8 (last section).
-/
import Idealize.ShloMosaic.PureOps.Ideal.Laws

noncomputable section

namespace Cert.Router

open Idealize.ShloMosaic

/-- The f32 word of minus infinity as an extended real: where both programs start a row maximum. -/
abbrev negInf : EReal := Ideal.ofBits .f32 0xFF800000#32

/-- The f32 word of one eighth as an extended real: the kernel's similarity scale. -/
abbrev eighth : EReal := Ideal.ofBits .f32 0x3E000000#32

/-- An expert's row projected to attention coordinate `a`: the sum over the 256 inputs. -/
def proj (x : Fin 16 → Fin 256 → EReal) (W : Fin 256 → Fin 64 → EReal) (e : Fin 16) (a : Fin 64) : EReal :=
  ∑ d : Fin 256, x e d * W d a

/-- The inner product of query expert `q`'s projection with key expert `k`'s. -/
def score (Q K : Fin 16 → Fin 64 → EReal) (q k : Fin 16) : EReal :=
  ∑ a : Fin 64, Q q a * K k a

/-- A row's maximum, from minus infinity. -/
def rowMax (x : Fin 16 → EReal) : EReal :=
  max negInf ((Finset.univ : Finset (Fin 16)).fold max negInf x)

/-- The softmax of a row of sixteen, at entry `k`. -/
def softmax (x : Fin 16 → EReal) (k : Fin 16) : EReal :=
  Ideal.div (Ideal.exp (x k - rowMax x)) (∑ j : Fin 16, Ideal.exp (x j - rowMax x))

/-- The gate averaged under query expert `q`'s softmax weights. -/
def gated (sim : Fin 16 → Fin 16 → EReal) (g : Fin 16 → EReal) (q : Fin 16) : EReal :=
  ∑ k : Fin 16, softmax (sim q) k * g k

/-- The scaled similarities of one token. -/
def sims (qt kt : Fin 16 → Fin 256 → EReal) (Wq Wk : Fin 256 → Fin 64 → EReal) (q k : Fin 16) : EReal :=
  score (proj qt Wq) (proj kt Wk) q k * eighth

/-- One token's routing weights. -/
def route (qt kt : Fin 16 → Fin 256 → EReal) (g : Fin 16 → EReal) (Wq Wk : Fin 256 → Fin 64 → EReal) (e : Fin 16) : EReal :=
  softmax (gated (sims qt kt Wq Wk) g) e

/-! ## Dividing by the root of 64 is multiplying by one eighth -/

/-- The f32 word `0x42800000` is the real 64. -/
theorem ofBits_sixtyfour : Ideal.ofBits .f32 0x42800000#32 = ((64 : ℝ) : EReal) := by
  simp [Ideal.ofBits, Ideal.ieee, -EReal.coe_mul]; norm_num

/-- The f32 word `0x3E000000` is the real 1/8. -/
theorem eighth_eq : eighth = (((1 : ℝ) / 8 : ℝ) : EReal) := by
  simp [eighth, Ideal.ofBits, Ideal.ieee, -EReal.coe_mul]; norm_num

/-- The square root of 64 is 8. -/
theorem sqrt_sixtyfour : Ideal.sqrt ((64 : ℝ) : EReal) = ((8 : ℝ) : EReal) := by
  show (if (64 : ℝ) < 0 then (⊥ : EReal) else ((Real.sqrt 64 : ℝ) : EReal)) = _
  rw [if_neg (by norm_num)]
  have h : Real.sqrt 64 = 8 := by
    rw [show (64 : ℝ) = 8 ^ 2 by norm_num]; exact Real.sqrt_sq (by norm_num)
  rw [h]

/-- The reference's quotient by the root of the word 64 is the kernel's product with the word 1/8, at
    every extended real, the infinities included. -/
theorem div_sqrt_sixtyfour (x : EReal) :
    Ideal.div x (Ideal.sqrt (Ideal.ofBits .f32 0x42800000#32)) = x * eighth := by
  rw [ofBits_sixtyfour, sqrt_sixtyfour, Ideal.div_coe (by norm_num : (8 : ℝ) ≠ 0), eighth_eq]

end Cert.Router

end
-- ==== Proof.BodySims.lean ====
/-
  The first stretch of the kernel body read at an index: the scaled similarity of query expert q with
  key expert k of the block's token r.
-/
import proofs.«153119_j82197084111013_1_alg».proof.Proof.BodyTerms
import proofs.«153119_j82197084111013_1_alg».proof.Proof.RouterSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The plain [4096,256] × [256,64] product: where its operand indices sit

Axis 0 of the left operand is kept (the output's row), axis 1 is contracted; axis 0 of the right operand
is contracted, axis 1 is kept (the output's column). -/

theorem plainDot_lhs_0 (i : S4096x64.Idx) (c : dot_S4096x256_S256x64_S4096x64_1_0_0_1_n_n.contr.Idx) :
    (dot_S4096x256_S256x64_S4096x64_1_0_0_1_n_n.lhsIdx i c 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem plainDot_lhs_1 (i : S4096x64.Idx) (c : dot_S4096x256_S256x64_S4096x64_1_0_0_1_n_n.contr.Idx) :
    (dot_S4096x256_S256x64_S4096x64_1_0_0_1_n_n.lhsIdx i c 1).val = (c ⟨0, by decide⟩).val :=
  dot_S4096x256_S256x64_S4096x64_1_0_0_1_n_n.lhsIdx_val_of_single rfl i c
theorem plainDot_rhs_0 (i : S4096x64.Idx) (c : dot_S4096x256_S256x64_S4096x64_1_0_0_1_n_n.contr.Idx) :
    (dot_S4096x256_S256x64_S4096x64_1_0_0_1_n_n.rhsIdx i c 0).val = (c ⟨0, by decide⟩).val :=
  dot_S4096x256_S256x64_S4096x64_1_0_0_1_n_n.rhsIdx_val_of_single rfl i c
theorem plainDot_rhs_1 (i : S4096x64.Idx) (c : dot_S4096x256_S256x64_S4096x64_1_0_0_1_n_n.contr.Idx) :
    (dot_S4096x256_S256x64_S4096x64_1_0_0_1_n_n.rhsIdx i c 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The plain product into a zero accumulator, at row m and column a: the sum over the 256 contracted
    positions of the left operand's row times the right operand's column. -/
theorem plainDot_apply {φ₁ φ₂ : FTy} (A : FVec Ideal S4096x256 φ₁) (B : FVec Ideal S256x64 φ₂)
    (m : Fin 4096) (a : Fin 64) :
    matmul dot_S4096x256_S256x64_S4096x64_1_0_0_1_n_n none A B (constant S4096x64 .f32 0x00000000#32) (ix2 m a)
      = ∑ d : Fin 256, A (ix2 m d) * B (ix2 d a) := by
  show FloatOps.matmul dot_S4096x256_S256x64_S4096x64_1_0_0_1_n_n none A B (constant S4096x64 .f32 0x00000000#32) (ix2 m a) = _
  rw [Ideal.matmul_constant_zero_apply,
    ← Equiv.sum_comp (ValueIdx.contrEquiv1 dot_S4096x256_S256x64_S4096x64_1_0_0_1_n_n 256 rfl rfl).symm]
  refine Finset.sum_congr rfl fun d _ => ?_
  have hd := ValueIdx.contrEquiv1_symm_val dot_S4096x256_S256x64_S4096x64_1_0_0_1_n_n 256 rfl rfl d
  have el : dot_S4096x256_S256x64_S4096x64_1_0_0_1_n_n.lhsIdx (ix2 m a)
      ((ValueIdx.contrEquiv1 dot_S4096x256_S256x64_S4096x64_1_0_0_1_n_n 256 rfl rfl).symm d) = ix2 m d :=
    funext fun x => Fin.ext (by
      match x with
      | ⟨0, _⟩ => exact plainDot_lhs_0 _ _
      | ⟨1, _⟩ => exact (plainDot_lhs_1 _ _).trans hd)
  have er : dot_S4096x256_S256x64_S4096x64_1_0_0_1_n_n.rhsIdx (ix2 m a)
      ((ValueIdx.contrEquiv1 dot_S4096x256_S256x64_S4096x64_1_0_0_1_n_n 256 rfl rfl).symm d) = ix2 d a :=
    funext fun x => Fin.ext (by
      match x with
      | ⟨0, _⟩ => exact (plainDot_rhs_0 _ _).trans hd
      | ⟨1, _⟩ => exact plainDot_rhs_1 _ _)
  rw [el, er]

/-! ## One projection read at an index

The block [256,16,256] is flattened to [4096,256] with token r's expert e on row r·16+e, multiplied by
the weight matrix, and the [4096,64] product is folded back to [256,16,64]. -/

/-- The row of the flattened block that holds token r's expert e. -/
def flatRow (r : Fin 256) (e : Fin 16) : Fin 4096 :=
  ⟨r.val * 16 + e.val, by have := r.isLt; have := e.isLt; omega⟩

/-- The flattened block at row r·16+e, column d, is the block at (r, e, d). -/
theorem flatten_apply {α : Type} (x : S256x16x256.Idx → α) (h : S256x16x256.ShapeCasts S4096x256)
    (r : Fin 256) (e : Fin 16) (d : Fin 256) :
    shapeCast S4096x256 x h (ix2 (flatRow r e) d) = x (ix3 r e d) :=
  shapeCast_apply x h (ix2 (flatRow r e) d) (ix3 r e d) (by
    rw [Shape.rowMajor_val_three, Shape.rowMajor_val_two]
    show (r.val * 16 + e.val) * 256 + d.val = (r.val * 16 + e.val) * 256 + d.val
    rfl)

/-- The folded product at (r, e, a) is the [4096,64] product at row r·16+e, column a. -/
theorem fold_apply {α : Type} (y : S4096x64.Idx → α) (h : S4096x64.ShapeCasts S256x16x64)
    (r : Fin 256) (e : Fin 16) (a : Fin 64) :
    shapeCast S256x16x64 y h (ix3 r e a) = y (ix2 (flatRow r e) a) :=
  shapeCast_apply y h (ix3 r e a) (ix2 (flatRow r e) a) (by
    rw [Shape.rowMajor_val_three, Shape.rowMajor_val_two]
    show (r.val * 16 + e.val) * 64 + a.val = (r.val * 16 + e.val) * 64 + a.val
    rfl)

/-- One projection of the kernel, read at token r, expert e, attention coordinate a: the sum over the
    256 inputs of the expert's row times the weight column. The two changes of float format and the
    cast to the same shape are identities on the extended reals. -/
theorem proj_apply (x : Vec Ideal S256x16x256 .f32) (W : Vec Ideal S256x64 .f32)
    (h₁ : S256x16x256.ShapeCasts S256x16x256) (hb : FTy.bits .bf16 < FTy.bits .f32)
    (h₂ : S256x16x256.ShapeCasts S4096x256) (h₃ : S4096x64.ShapeCasts S256x16x64)
    (r : Fin 256) (e : Fin 16) (a : Fin 64) :
    shapeCast S256x16x64
        (matmul dot_S4096x256_S256x64_S4096x64_1_0_0_1_n_n none
          (shapeCast S4096x256 (truncf .bf16 (shapeCast S256x16x256 x h₁ : FVec Ideal S256x16x256 .f32) hb) h₂)
          (truncf .bf16 (W : FVec Ideal S256x64 .f32) hb) (constant S4096x64 .f32 0x00000000#32))
        h₃ (ix3 r e a)
      = Cert.Router.proj (fun e d => x (ix3 r e d)) (fun d a => W (ix2 d a)) e a := by
  rw [fold_apply, plainDot_apply]
  unfold Cert.Router.proj
  refine Finset.sum_congr rfl fun d _ => ?_
  rw [flatten_apply, truncf_apply, truncf_apply, shapeCast_self]

/-! ## The batched [256,16,64] × [256,16,64] product: where its operand indices sit

Axis 0 of both operands is the batch (the token), axis 2 of both is contracted (the attention
coordinate); axis 1 of the left operand is the output's axis 1 (the query expert) and axis 1 of the right
operand is the output's axis 2 (the key expert). -/

theorem batchDot_lhs_0 (i : S256x16x16.Idx) (c : dot_S256x16x64_S256x16x64_S256x16x16_2_2_1_1_0_0.contr.Idx) :
    (dot_S256x16x64_S256x16x64_S256x16x16_2_2_1_1_0_0.lhsIdx i c 0).val = (i 0).val := by
  unfold DotDims.lhsIdx
  rw [dif_pos (show (0 : Fin S256x16x64.rank) ∈ dot_S256x16x64_S256x16x64_S256x16x16_2_2_1_1_0_0.lhsBatch by decide)]
  rfl
theorem batchDot_lhs_1 (i : S256x16x16.Idx) (c : dot_S256x16x64_S256x16x64_S256x16x16_2_2_1_1_0_0.contr.Idx) :
    (dot_S256x16x64_S256x16x64_S256x16x16_2_2_1_1_0_0.lhsIdx i c 1).val = (i 1).val := by
  unfold DotDims.lhsIdx
  rw [dif_neg (show ¬(1 : Fin S256x16x64.rank) ∈ dot_S256x16x64_S256x16x64_S256x16x16_2_2_1_1_0_0.lhsBatch by decide), dif_pos (show (1 : Fin S256x16x64.rank) ∈ dot_S256x16x64_S256x16x64_S256x16x16_2_2_1_1_0_0.lhsNonContracting by decide)]
  rfl
theorem batchDot_lhs_2 (i : S256x16x16.Idx) (c : dot_S256x16x64_S256x16x64_S256x16x16_2_2_1_1_0_0.contr.Idx) :
    (dot_S256x16x64_S256x16x64_S256x16x16_2_2_1_1_0_0.lhsIdx i c 2).val = (c ⟨0, by decide⟩).val :=
  dot_S256x16x64_S256x16x64_S256x16x16_2_2_1_1_0_0.lhsIdx_val_of_single rfl i c
theorem batchDot_rhs_0 (i : S256x16x16.Idx) (c : dot_S256x16x64_S256x16x64_S256x16x16_2_2_1_1_0_0.contr.Idx) :
    (dot_S256x16x64_S256x16x64_S256x16x16_2_2_1_1_0_0.rhsIdx i c 0).val = (i 0).val := by
  unfold DotDims.rhsIdx
  rw [dif_pos (show (0 : Fin S256x16x64.rank) ∈ dot_S256x16x64_S256x16x64_S256x16x16_2_2_1_1_0_0.rhsBatch by decide)]
  rfl
theorem batchDot_rhs_1 (i : S256x16x16.Idx) (c : dot_S256x16x64_S256x16x64_S256x16x16_2_2_1_1_0_0.contr.Idx) :
    (dot_S256x16x64_S256x16x64_S256x16x16_2_2_1_1_0_0.rhsIdx i c 1).val = (i 2).val := by
  unfold DotDims.rhsIdx
  rw [dif_neg (show ¬(1 : Fin S256x16x64.rank) ∈ dot_S256x16x64_S256x16x64_S256x16x16_2_2_1_1_0_0.rhsBatch by decide), dif_pos (show (1 : Fin S256x16x64.rank) ∈ dot_S256x16x64_S256x16x64_S256x16x16_2_2_1_1_0_0.rhsNonContracting by decide)]
  rfl
theorem batchDot_rhs_2 (i : S256x16x16.Idx) (c : dot_S256x16x64_S256x16x64_S256x16x16_2_2_1_1_0_0.contr.Idx) :
    (dot_S256x16x64_S256x16x64_S256x16x16_2_2_1_1_0_0.rhsIdx i c 2).val = (c ⟨0, by decide⟩).val :=
  dot_S256x16x64_S256x16x64_S256x16x16_2_2_1_1_0_0.rhsIdx_val_of_single rfl i c

/-- The batched product into a zero accumulator, at token r, query expert q, key expert k: the inner
    product over the 64 attention coordinates of the left operand's row (r, q) with the right operand's
    row (r, k). -/
theorem batchDot_apply {φ₁ φ₂ : FTy} (A : FVec Ideal S256x16x64 φ₁) (B : FVec Ideal S256x16x64 φ₂)
    (r : Fin 256) (q k : Fin 16) :
    matmul dot_S256x16x64_S256x16x64_S256x16x16_2_2_1_1_0_0 none A B (constant S256x16x16 .f32 0x00000000#32) (ix3 r q k)
      = ∑ a : Fin 64, A (ix3 r q a) * B (ix3 r k a) := by
  show FloatOps.matmul dot_S256x16x64_S256x16x64_S256x16x16_2_2_1_1_0_0 none A B (constant S256x16x16 .f32 0x00000000#32) (ix3 r q k) = _
  rw [Ideal.matmul_constant_zero_apply,
    ← Equiv.sum_comp (ValueIdx.contrEquiv1 dot_S256x16x64_S256x16x64_S256x16x16_2_2_1_1_0_0 64 rfl rfl).symm]
  refine Finset.sum_congr rfl fun a _ => ?_
  have ha := ValueIdx.contrEquiv1_symm_val dot_S256x16x64_S256x16x64_S256x16x16_2_2_1_1_0_0 64 rfl rfl a
  have el : dot_S256x16x64_S256x16x64_S256x16x16_2_2_1_1_0_0.lhsIdx (ix3 r q k)
      ((ValueIdx.contrEquiv1 dot_S256x16x64_S256x16x64_S256x16x16_2_2_1_1_0_0 64 rfl rfl).symm a) = ix3 r q a :=
    funext fun x => Fin.ext (by
      match x with
      | ⟨0, _⟩ => exact batchDot_lhs_0 _ _
      | ⟨1, _⟩ => exact batchDot_lhs_1 _ _
      | ⟨2, _⟩ => exact (batchDot_lhs_2 _ _).trans ha)
  have er : dot_S256x16x64_S256x16x64_S256x16x16_2_2_1_1_0_0.rhsIdx (ix3 r q k)
      ((ValueIdx.contrEquiv1 dot_S256x16x64_S256x16x64_S256x16x16_2_2_1_1_0_0 64 rfl rfl).symm a) = ix3 r k a :=
    funext fun x => Fin.ext (by
      match x with
      | ⟨0, _⟩ => exact batchDot_rhs_0 _ _
      | ⟨1, _⟩ => exact batchDot_rhs_1 _ _
      | ⟨2, _⟩ => exact (batchDot_rhs_2 _ _).trans ha)
  rw [el, er]

theorem simTerm_apply (v0 v3 : Vec Ideal S256x16x256 .f32) (v6 v8 : Vec Ideal S256x64 .f32)
    (r : Fin 256) (q k : Fin 16) :
    simTerm (F := Ideal) v0 v3 v6 v8 (ix3 r q k)
      = Cert.Router.sims (fun e d => v0 (ix3 r e d)) (fun e d => v3 (ix3 r e d))
          (fun d a => v6 (ix2 d a)) (fun d a => v8 (ix2 d a)) q k := by
  unfold simTerm
  rw [mulf_apply, broadcast_apply, batchDot_apply]
  unfold Cert.Router.sims Cert.Router.score
  refine congrArg (· * Cert.Router.eighth) (Finset.sum_congr rfl fun a _ => ?_)
  rw [truncf_apply, truncf_apply, proj_apply, proj_apply]

end Cert.KernelIdeal.Body

end
-- ==== Proof.BodySoftmax.lean ====
/-
  The second stretch of the kernel body, and its second payload, read at an index: the gate averaged
  under a query expert's softmax weights, and the softmax over the sixteen averages.
-/
import proofs.«153119_j82197084111013_1_alg».proof.Proof.BodyTerms
import proofs.«153119_j82197084111013_1_alg».proof.Proof.RouterSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The index a reduction over the last axis inserts -/

/-- Over the token-and-query index (r, q), the reduction of a [256,16,16] array along its last axis
    reads the array at (r, q, k). -/
theorem lift_last3 (r : Fin 256) (q : Fin 16) (k : Fin (S256x16x16.size 2)) :
    reduces_S256x16x16_S256x16.lift (ix2 r q) k = ix3 r q (⟨k.val, k.isLt⟩ : Fin 16) := by
  funext c
  apply Fin.ext
  match c with
  | ⟨0, _⟩ => rfl
  | ⟨1, _⟩ => rfl
  | ⟨2, _⟩ => rfl

/-- Over the token index r, the reduction of a [256,16] array along its last axis reads the array
    at (r, k). -/
theorem lift_last2 (r : Fin 256) (k : Fin (S256x16.size 1)) :
    reduces_S256x16_S256.lift (ix1 r) k = ix2 r (⟨k.val, k.isLt⟩ : Fin 16) := by
  funext c
  apply Fin.ext
  match c with
  | ⟨0, _⟩ => rfl
  | ⟨1, _⟩ => rfl

/-! ## A cast to a unit axis followed by the broadcast along it -/

section CastBroadcast
variable {α : Type}

/-- A [256,16] array viewed [256,16,1] and spread along the last axis reads, at (r, q, k), its
    value at (r, q). -/
theorem broadcast_last3 (v : S256x16.Idx → α) (r : Fin 256) (q k : Fin 16) :
    broadcastTo S256x16x16 (shapeCast S256x16x1 v shapeCasts_S256x16_S256x16x1)
      broadcasts_S256x16x1_S256x16x16 (ix3 r q k) = v (ix2 r q) := by
  refine (broadcastTo_apply _ broadcasts_S256x16x1_S256x16x16 (ix3 r q k) (ix3 r q (0 : Fin 1))
    fun a => ?_).trans ?_
  · match a with
    | ⟨0, _⟩ => rfl
    | ⟨1, _⟩ => rfl
    | ⟨2, _⟩ => rfl
  · refine shapeCast_apply v shapeCasts_S256x16_S256x16x1 (ix3 r q (0 : Fin 1)) (ix2 r q) ?_
    rw [Shape.rowMajor_val_two, Shape.rowMajor_val_three]
    show r.val * 16 + q.val = (r.val * 16 + q.val) * 1 + 0
    omega

/-- A [256,16] array viewed [256,1,16] and spread along the middle axis reads, at (r, q, k), its
    value at (r, k). -/
theorem broadcast_mid3 (v : S256x16.Idx → α) (r : Fin 256) (q k : Fin 16) :
    broadcastTo S256x16x16 (shapeCast S256x1x16 v shapeCasts_S256x16_S256x1x16)
      broadcasts_S256x1x16_S256x16x16 (ix3 r q k) = v (ix2 r k) := by
  refine (broadcastTo_apply _ broadcasts_S256x1x16_S256x16x16 (ix3 r q k) (ix3 r (0 : Fin 1) k)
    fun a => ?_).trans ?_
  · match a with
    | ⟨0, _⟩ => rfl
    | ⟨1, _⟩ => rfl
    | ⟨2, _⟩ => rfl
  · refine shapeCast_apply v shapeCasts_S256x16_S256x1x16 (ix3 r (0 : Fin 1) k) (ix2 r k) ?_
    rw [Shape.rowMajor_val_two, Shape.rowMajor_val_three]
    show r.val * 16 + k.val = (r.val * 1 + 0) * 16 + k.val
    omega

/-- A [256] array viewed [256,1] and spread along the last axis reads, at (r, e), its value at r. -/
theorem broadcast_last2 (v : S256.Idx → α) (r : Fin 256) (e : Fin 16) :
    broadcastTo S256x16 (shapeCast S256x1 v shapeCasts_S256_S256x1)
      broadcasts_S256x1_S256x16 (ix2 r e) = v (ix1 r) := by
  refine (broadcastTo_apply _ broadcasts_S256x1_S256x16 (ix2 r e) (ix2 r (0 : Fin 1))
    fun a => ?_).trans ?_
  · match a with
    | ⟨0, _⟩ => rfl
    | ⟨1, _⟩ => rfl
  · refine shapeCast_apply v shapeCasts_S256_S256x1 (ix2 r (0 : Fin 1)) (ix1 r) ?_
    rw [Shape.rowMajor_val_one, Shape.rowMajor_val_two]
    show r.val = r.val * 1 + 0
    omega

end CastBroadcast

/-! ## The two reductions over the last axis, and the exponential, read at an index -/

/-- The exponential of an array, at an index, is the exponential of the entry there. -/
theorem exp_at {s : Shape} {φ : FTy} (x : FVec Ideal s φ) (i : s.Idx) : exp x i = Ideal.exp (x i) := rfl

/-- The sum of a [256,16,16] array along its last axis, at (r, q): the sum over k of the array at
    (r, q, k). -/
theorem sum_last3 (w : FVec Ideal S256x16x16 .f32) (acc : BitVec (FTy.bits .f32)) (hφ : FKind.Formats .f32)
    (hacc : acc = FKind.add.neutral .f32 hφ) (r : Fin 256) (q : Fin 16) :
    multiReduction .add [2] S256x16 w acc reduces_S256x16x16_S256x16 hφ hacc (ix2 r q)
      = ∑ k : Fin 16, w (ix3 r q k) := by
  refine (Ideal.multiReduction_add_single w acc reduces_S256x16x16_S256x16 hφ hacc (ix2 r q)).trans ?_
  exact Finset.sum_congr rfl fun k _ => congrArg w (lift_last3 r q k)

/-- The maximum of a [256,16,16] array along its last axis, at (r, q): the fold of `max` from the
    starting word's value over the row k ↦ the array at (r, q, k). -/
theorem max_last3 (w : FVec Ideal S256x16x16 .f32) (acc : BitVec (FTy.bits .f32)) (hφ : FKind.Formats .f32)
    (hacc : acc = FKind.maximumf.neutral .f32 hφ) (r : Fin 256) (q : Fin 16) :
    multiReduction .maximumf [2] S256x16 w acc reduces_S256x16x16_S256x16 hφ hacc (ix2 r q)
      = (Finset.univ : Finset (Fin 16)).fold max (Ideal.ofBits .f32 acc) (fun k => w (ix3 r q k)) := by
  refine (Ideal.multiReduction_maximumf_single w acc reduces_S256x16x16_S256x16 hφ hacc (ix2 r q)).trans ?_
  have hrow : w ∘ reduces_S256x16x16_S256x16.lift (ix2 r q) = fun k : Fin 16 => w (ix3 r q k) :=
    funext fun k => congrArg w (lift_last3 r q k)
  rw [hrow]
  rfl

/-- The sum of a [256,16] array along its last axis, at r: the sum over k of the array at (r, k). -/
theorem sum_last2 (w : FVec Ideal S256x16 .f32) (acc : BitVec (FTy.bits .f32)) (hφ : FKind.Formats .f32)
    (hacc : acc = FKind.add.neutral .f32 hφ) (r : Fin 256) :
    multiReduction .add [1] S256 w acc reduces_S256x16_S256 hφ hacc (ix1 r)
      = ∑ k : Fin 16, w (ix2 r k) := by
  refine (Ideal.multiReduction_add_single w acc reduces_S256x16_S256 hφ hacc (ix1 r)).trans ?_
  exact Finset.sum_congr rfl fun k _ => congrArg w (lift_last2 r k)

/-- The maximum of a [256,16] array along its last axis, at r: the fold of `max` from the starting
    word's value over the row k ↦ the array at (r, k). -/
theorem max_last2 (w : FVec Ideal S256x16 .f32) (acc : BitVec (FTy.bits .f32)) (hφ : FKind.Formats .f32)
    (hacc : acc = FKind.maximumf.neutral .f32 hφ) (r : Fin 256) :
    multiReduction .maximumf [1] S256 w acc reduces_S256x16_S256 hφ hacc (ix1 r)
      = (Finset.univ : Finset (Fin 16)).fold max (Ideal.ofBits .f32 acc) (fun k => w (ix2 r k)) := by
  refine (Ideal.multiReduction_maximumf_single w acc reduces_S256x16_S256 hφ hacc (ix1 r)).trans ?_
  have hrow : w ∘ reduces_S256x16_S256.lift (ix1 r) = fun k : Fin 16 => w (ix2 r k) :=
    funext fun k => congrArg w (lift_last2 r k)
  rw [hrow]
  rfl

/-! ## A softmax row, as the kernel computes it, read at an index -/

/-- The row maximum of a [256,16,16] array along its last axis, taken from minus infinity and once
    more against minus infinity, at (r, q). -/
theorem rowMax_last3 (w : FVec Ideal S256x16x16 .f32) (hφ : FKind.Formats .f32)
    (hm : (0xFF800000#32 : BitVec (FTy.bits .f32)) = FKind.maximumf.neutral .f32 hφ)
    (r : Fin 256) (q : Fin 16) :
    maximumf (broadcast S256x16 (Scalar.ofBits .f32 0xFF800000#32))
        (multiReduction .maximumf [2] S256x16 w 0xFF800000#32 reduces_S256x16x16_S256x16 hφ hm) (ix2 r q)
      = Cert.Router.rowMax (fun k => w (ix3 r q k)) := by
  rw [maximumf_apply, broadcast_apply, max_last3]
  rfl

/-- The exponential of a [256,16,16] array's distance below a [256,16] array spread along the last
    axis, at (r, q, k). -/
theorem expBelow_last3 (w : FVec Ideal S256x16x16 .f32) (m : FVec Ideal S256x16 .f32)
    (r : Fin 256) (q k : Fin 16) :
    exp (subf w (broadcastTo S256x16x16 (shapeCast S256x16x1 m shapeCasts_S256x16_S256x16x1)
        broadcasts_S256x16x1_S256x16x16)) (ix3 r q k)
      = Ideal.exp (w (ix3 r q k) - m (ix2 r q)) := by
  rw [exp_at, subf_apply, broadcast_last3]

/-- The softmax of a [256,16,16] array along its last axis, as the kernel computes it, at (r, q, k):
    the softmax of the row k' ↦ the array at (r, q, k'), at entry k. -/
theorem softmax_last3 (w : FVec Ideal S256x16x16 .f32) (hφ : FKind.Formats .f32)
    (hm : (0xFF800000#32 : BitVec (FTy.bits .f32)) = FKind.maximumf.neutral .f32 hφ)
    (hs : (0x00000000#32 : BitVec (FTy.bits .f32)) = FKind.add.neutral .f32 hφ)
    (r : Fin 256) (q k : Fin 16) :
    divf
        (exp (subf w (broadcastTo S256x16x16 (shapeCast S256x16x1
          (maximumf (broadcast S256x16 (Scalar.ofBits .f32 0xFF800000#32))
            (multiReduction .maximumf [2] S256x16 w 0xFF800000#32 reduces_S256x16x16_S256x16 hφ hm))
          shapeCasts_S256x16_S256x16x1) broadcasts_S256x16x1_S256x16x16)))
        (broadcastTo S256x16x16 (shapeCast S256x16x1
          (multiReduction .add [2] S256x16
            (exp (subf w (broadcastTo S256x16x16 (shapeCast S256x16x1
              (maximumf (broadcast S256x16 (Scalar.ofBits .f32 0xFF800000#32))
                (multiReduction .maximumf [2] S256x16 w 0xFF800000#32 reduces_S256x16x16_S256x16 hφ hm))
              shapeCasts_S256x16_S256x16x1) broadcasts_S256x16x1_S256x16x16)))
            0x00000000#32 reduces_S256x16x16_S256x16 hφ hs)
          shapeCasts_S256x16_S256x16x1) broadcasts_S256x16x1_S256x16x16)
        (ix3 r q k)
      = Cert.Router.softmax (fun k' => w (ix3 r q k')) k := by
  rw [divf_apply, broadcast_last3, sum_last3]
  simp only [expBelow_last3]
  rw [rowMax_last3]
  rfl

/-- The row maximum of a [256,16] array along its last axis, taken from minus infinity and once more
    against minus infinity, at r. -/
theorem rowMax_last2 (w : FVec Ideal S256x16 .f32) (hφ : FKind.Formats .f32)
    (hm : (0xFF800000#32 : BitVec (FTy.bits .f32)) = FKind.maximumf.neutral .f32 hφ) (r : Fin 256) :
    maximumf (broadcast S256 (Scalar.ofBits .f32 0xFF800000#32))
        (multiReduction .maximumf [1] S256 w 0xFF800000#32 reduces_S256x16_S256 hφ hm) (ix1 r)
      = Cert.Router.rowMax (fun k => w (ix2 r k)) := by
  rw [maximumf_apply, broadcast_apply, max_last2]
  rfl

/-- The exponential of a [256,16] array's distance below a [256] array spread along the last axis,
    at (r, e). -/
theorem expBelow_last2 (w : FVec Ideal S256x16 .f32) (m : FVec Ideal S256 .f32)
    (r : Fin 256) (e : Fin 16) :
    exp (subf w (broadcastTo S256x16 (shapeCast S256x1 m shapeCasts_S256_S256x1)
        broadcasts_S256x1_S256x16)) (ix2 r e)
      = Ideal.exp (w (ix2 r e) - m (ix1 r)) := by
  rw [exp_at, subf_apply, broadcast_last2]

/-- The softmax of a [256,16] array along its last axis, as the kernel computes it, at (r, e): the
    softmax of the row k ↦ the array at (r, k), at entry e. -/
theorem softmax_last2 (w : FVec Ideal S256x16 .f32) (hφ : FKind.Formats .f32)
    (hm : (0xFF800000#32 : BitVec (FTy.bits .f32)) = FKind.maximumf.neutral .f32 hφ)
    (hs : (0x00000000#32 : BitVec (FTy.bits .f32)) = FKind.add.neutral .f32 hφ)
    (r : Fin 256) (e : Fin 16) :
    divf
        (exp (subf w (broadcastTo S256x16 (shapeCast S256x1
          (maximumf (broadcast S256 (Scalar.ofBits .f32 0xFF800000#32))
            (multiReduction .maximumf [1] S256 w 0xFF800000#32 reduces_S256x16_S256 hφ hm))
          shapeCasts_S256_S256x1) broadcasts_S256x1_S256x16)))
        (broadcastTo S256x16 (shapeCast S256x1
          (multiReduction .add [1] S256
            (exp (subf w (broadcastTo S256x16 (shapeCast S256x1
              (maximumf (broadcast S256 (Scalar.ofBits .f32 0xFF800000#32))
                (multiReduction .maximumf [1] S256 w 0xFF800000#32 reduces_S256x16_S256 hφ hm))
              shapeCasts_S256_S256x1) broadcasts_S256x1_S256x16)))
            0x00000000#32 reduces_S256x16_S256 hφ hs)
          shapeCasts_S256_S256x1) broadcasts_S256x1_S256x16)
        (ix2 r e)
      = Cert.Router.softmax (fun k => w (ix2 r k)) e := by
  rw [divf_apply, broadcast_last2, sum_last2]
  simp only [expBelow_last2]
  rw [rowMax_last2]
  rfl

/-! ## The two payloads -/

theorem gateTerm_apply (v20 : FVec Ideal S256x16x16 .f32) (v32 : Vec Ideal S256x16 .f32)
    (r : Fin 256) (q : Fin 16) :
    gateTerm (F := Ideal) v20 v32 (ix2 r q)
      = Cert.Router.gated (fun q' k => v20 (ix3 r q' k)) (fun k => v32 (ix2 r k)) q := by
  unfold gateTerm Cert.Router.gated
  -- the outer sum over the key experts, term by term
  refine (sum_last3 _ _ _ _ r q).trans ?_
  refine Finset.sum_congr rfl fun k _ => ?_
  rw [mulf_apply]
  -- the weight is the softmax row's entry; the gate is read through the identity cast and the
  -- spread along the query axis
  refine congrArg₂ (· * ·) (softmax_last3 v20 _ _ _ r q k) ?_
  exact (broadcast_mid3 _ r q k).trans (congrFun (shapeCast_self v32 _) (ix2 r k))

theorem pay1_apply (v37 : FVec Ideal S256x16 .f32) (r : Fin 256) (e : Fin 16) :
    k0_pay1 (F := Ideal) v37 (ix2 r e) = Cert.Router.softmax (fun q => v37 (ix2 r q)) e := by
  unfold k0_pay1
  exact softmax_last2 v37 _ _ _ r e

end Cert.KernelIdeal.Body

end
-- ==== Proof.BodyValue.lean ====
/-
  The kernel body's stored value at row r, expert e of a block: the routing weights of the block's
  token r, from that token's query rows, key rows and gate row and the two weight matrices.
-/
import proofs.«153119_j82197084111013_1_alg».proof.Proof.BodySims
import proofs.«153119_j82197084111013_1_alg».proof.Proof.BodySoftmax

noncomputable section

namespace Cert.KernelIdeal.Body

open Cert.KernelIdeal Cert.KernelIdeal.Gen Idealize.ShloMosaic Idealize.ShloMosaic.ValueIdx

theorem body_apply (v0 v3 : Vec Ideal S256x16x256 .f32) (v6 v8 : Vec Ideal S256x64 .f32) (v32 : Vec Ideal S256x16 .f32)
    (r : Fin 256) (e : Fin 16) :
    k0_pay1 (F := Ideal) (k0_pay2 (F := Ideal) v0 v3 v6 v8 v32) (ix2 r e)
      = Cert.Router.route (fun e d => v0 (ix3 r e d)) (fun e d => v3 (ix3 r e d)) (fun k => v32 (ix2 r k))
          (fun d a => v6 (ix2 d a)) (fun d a => v8 (ix2 d a)) e := by
  rw [pay1_apply, pay2_split]
  unfold Cert.Router.route
  refine congrArg (fun f => Cert.Router.softmax f e) (funext fun q => ?_)
  rw [gateTerm_apply]
  refine congrArg (fun f => Cert.Router.gated f (fun k => v32 (ix2 r k)) q) (funext fun q' => funext fun k => ?_)
  exact simTerm_apply v0 v3 v6 v8 r q' k

end Cert.KernelIdeal.Body

end
-- ==== Proof.KernelArray.lean ====
/-
  The kernel's result array, from the run of its one region.

  The region works on the token-major copies of the inputs: 8192 tokens, a block of 256 tokens per grid
  point. Point t's query, key and gate blocks are rows 256·t … 256·t + 255 of their arrays and the two
  weight matrices are whole, so by the body's value at a row the block point t writes back is rows
  256·t … 256·t + 255 of ONE array: the routing weights of every token. The 32 blocks tile the array.
  The host lines before the region re-lay the inputs token-major and the line after it re-lays the
  result as [batch, position, expert]; both are read at an index by the row-major position.
-/
import proofs.«153119_j82197084111013_1_alg».proof.Proof.Gen.KernelIdeal.Frame
import proofs.«153119_j82197084111013_1_alg».proof.Proof.BodyValue
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Body

variable (m : (ℓ : Loc nD τ sig) → Buf (Elt Ideal) ℓ) (ρ : Dev nD → PrngReg)

/-- The routing weights of all 8192 tokens, from the token-major query, key and gate arrays and the two
    weight matrices: row n is token n's. -/
def tokens (Q K : S8192x16x256.Idx → EReal) (g : S8192x16.Idx → EReal) (Wq Wk : S256x64.Idx → EReal) :
    S8192x16.Idx → EReal := fun i =>
  Cert.Router.route (fun e d => Q (ix3 (i 0) e d)) (fun e d => K (ix3 (i 0) e d)) (fun k => g (ix2 (i 0) k))
    (fun d a => Wq (ix2 d a)) (fun d a => Wk (ix2 d a)) (i 1)

/-- Equal token data give equal routing weights. -/
theorem route_congr {q q' k k' : Fin 16 → Fin 256 → EReal} {g g' : Fin 16 → EReal} {wq wq' wk wk' : Fin 256 → Fin 64 → EReal}
    {e e' : Fin 16} (hq : q = q') (hk : k = k') (hg : g = g') (hwq : wq = wq') (hwk : wk = wk') (he : e = e') :
    Cert.Router.route q k g wq wk e = Cert.Router.route q' k' g' wq' wk' e' := by
  subst hq hk hg hwq hwk he; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the token-major windows move one block of rows per point, the weight
    windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := by
  have h : t.val < cfg0.N := t.isLt
  have hN : cfg0.N = 32 := N_0
  omega

/-- Point t's query block is rows 256·t … of the token-major query array. -/
theorem qblk_apply (c : Dev nD) (t : Fin cfg0.N) (x : S256x16x256.Idx) (k : S8192x16x256.Idx)
    (h0 : (k 0).val = t.val * 256 + (x 0).val) (h1 : (k 1).val = (x 1).val) (h2 : (k 2).val = (x 2).val) :
    (iblk m c 0 t : Vec Ideal S256x16x256 .f32) x = (V m c main_v0 : S8192x16x256.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 256 + 1 * (x 0).val = (k 0).val; rw [e0, h0]; omega
  | ⟨1, _⟩ => show win0_0.index t (1 : Fin 3) * 16 + 1 * (x 1).val = (k 1).val; rw [e1, h1]; omega
  | ⟨2, _⟩ => show win0_0.index t (2 : Fin 3) * 256 + 1 * (x 2).val = (k 2).val; rw [e2, h2]; omega

/-- Point t's key block is rows 256·t … of the token-major key array. -/
theorem kblk_apply (c : Dev nD) (t : Fin cfg0.N) (x : S256x16x256.Idx) (k : S8192x16x256.Idx)
    (h0 : (k 0).val = t.val * 256 + (x 0).val) (h1 : (k 1).val = (x 1).val) (h2 : (k 2).val = (x 2).val) :
    (iblk m c 1 t : Vec Ideal S256x16x256 .f32) x = (V m c main_v1 : S8192x16x256.Idx → EReal) k := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 256 + 1 * (x 0).val = (k 0).val; rw [e0, h0]; omega
  | ⟨1, _⟩ => show win0_1.index t (1 : Fin 3) * 16 + 1 * (x 1).val = (k 1).val; rw [e1, h1]; omega
  | ⟨2, _⟩ => show win0_1.index t (2 : Fin 3) * 256 + 1 * (x 2).val = (k 2).val; rw [e2, h2]; omega

/-- Point t's gate block is rows 256·t … of the token-major gate array. -/
theorem gblk_apply (c : Dev nD) (t : Fin cfg0.N) (x : S256x16.Idx) (k : S8192x16.Idx)
    (h0 : (k 0).val = t.val * 256 + (x 0).val) (h1 : (k 1).val = (x 1).val) :
    (iblk m c 2 t : Vec Ideal S256x16 .f32) x = (V m c main_v2 : S8192x16.Idx → EReal) k := by
  obtain ⟨-, -, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 256 + 1 * (x 0).val = (k 0).val; rw [e0, h0]; omega
  | ⟨1, _⟩ => show win0_2.index t (1 : Fin 2) * 16 + 1 * (x 1).val = (k 1).val; rw [e1, h1]; omega

/-- Every point's query-weight block is the whole matrix. -/
theorem wqblk_apply (c : Dev nD) (t : Fin cfg0.N) (x : S256x64.Idx) :
    (iblk m c 3 t : Vec Ideal S256x64 .f32) x = (V m c main_arg3 : S256x64.Idx → EReal) x := by
  obtain ⟨-, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 64 + 1 * (x 1).val = (x 1).val; rw [e1]; omega

/-- Every point's key-weight block is the whole matrix. -/
theorem wkblk_apply (c : Dev nD) (t : Fin cfg0.N) (x : S256x64.Idx) :
    (iblk m c 4 t : Vec Ideal S256x64 .f32) x = (V m c main_arg4 : S256x64.Idx → EReal) x := by
  obtain ⟨-, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 256 + 1 * (x 0).val = (x 0).val; rw [e0]; omega
  | ⟨1, _⟩ => show win0_4.index t (1 : Fin 2) * 64 + 1 * (x 1).val = (x 1).val; rw [e1]; omega

/-- The arrays as the region finds them, by their literal types. -/
abbrev Qarr (c : Dev nD) : S8192x16x256.Idx → EReal := V m c main_v0
abbrev Karr (c : Dev nD) : S8192x16x256.Idx → EReal := V m c main_v1
abbrev Garr (c : Dev nD) : S8192x16.Idx → EReal := V m c main_v2
abbrev WQarr (c : Dev nD) : S256x64.Idx → EReal := V m c main_arg3
abbrev WKarr (c : Dev nD) : S256x64.Idx → EReal := V m c main_arg4

/-- The array of every token's routing weights, from the arrays as the region finds them. -/
abbrev allTokens (c : Dev nD) : S8192x16.Idx → EReal :=
  tokens (Qarr m c) (Karr m c) (Garr m c) (WQarr m c) (WKarr m c)

/-- The body's stored value at entry y of point t's block is the routing weight at row 256·t + y₀, expert y₁. -/
theorem block_value (c : Dev nD) (t : Fin cfg0.N) (y : S256x16.Idx) (i : S8192x16.Idx)
    (h0 : (i 0).val = t.val * 256 + (y 0).val) (h1 : (i 1).val = (y 1).val) :
    k0_pay1 (F := Ideal) (k0_pay2 (F := Ideal) (iblk m c 0 t) (iblk m c 1 t) (iblk m c 3 t) (iblk m c 4 t) (iblk m c 2 t)) y
      = allTokens m c i := by
  have hy : y = ix2 (y 0) (y 1) := eq_ix2 y
  rw [hy]
  refine (body_apply (iblk m c 0 t) (iblk m c 1 t) (iblk m c 3 t) (iblk m c 4 t) (iblk m c 2 t) (y 0) (y 1)).trans ?_
  unfold allTokens tokens
  exact route_congr
    (funext fun e => funext fun d => qblk_apply m c t (ix3 (y 0) e d) (ix3 (i 0) e d) h0 rfl rfl)
    (funext fun e => funext fun d => kblk_apply m c t (ix3 (y 0) e d) (ix3 (i 0) e d) h0 rfl rfl)
    (funext fun k => gblk_apply m c t (ix2 (y 0) k) (ix2 (i 0) k) h0 rfl)
    (funext fun d => funext fun a => wqblk_apply m c t (ix2 d a))
    (funext fun d => funext fun a => wkblk_apply m c t (ix2 d a))
    (Fin.ext h1).symm

/-- What point t writes back is its block of the array of every token's routing weights. -/
theorem flushed_eq (c : Dev nD) (t : Fin cfg0.N) :
    (dats m 0 c).flushed 5 t = ((cfg0.win 5).blk t).view.read (Elt Ideal) (allTokens m c) := by
  show (cfg0.win 5).cut (grid0.coords t) ((dats m 0 c).after 5 t) = _
  rw [after0_5]
  unfold out0_5
  rw [View.canon_unit_zero hz2]
  simp only [View.ld_unit_zero (S := S256x16x256) hz3, View.ld_unit_zero (S := S256x64) hz2, View.ld_unit_zero (S := S256x16) hz2]
  obtain ⟨-, -, -, -, -, -, -, -, -, -, -, -, e0, e1⟩ := idx_facts t
  funext j
  show k0_pay1 (F := Ideal) (k0_pay2 (F := Ideal) (iblk m c 0 t) (iblk m c 1 t) (iblk m c 3 t) (iblk m c 4 t) (iblk m c 2 t)) j
      = allTokens m c (((cfg0.win 5).blk t).view.emb j)
  refine block_value m c t j _ ?_ ?_
  · show win0_5.index t (0 : Fin 2) * 256 + 1 * (j 0).val = t.val * 256 + (j 0).val; rw [e0]; omega
  · show win0_5.index t (1 : Fin 2) * 16 + 1 * (j 1).val = (j 1).val; rw [e1]; omega

/-- An index of the array is in point t's block iff each coordinate is in the block's range on its axis. -/
theorem mem_blk (t : Fin cfg0.N) (i : S8192x16.Idx) :
    i ∈ ((cfg0.win 5).blk t).view.set ↔ ∀ a : Fin 2, win0_5.index t a * S256x16.size a ≤ (i a).val ∧ (i a).val < win0_5.index t a * S256x16.size a + S256x16.size a := by
  show i ∈ ((View.whole main_v3).slice (win0_5.rect t)).set ↔ _
  rw [View.set_slice_whole, Rect.mem_set_unit]
  exact Iff.rfl

/-- Row n of the array is in the block of point n / 256. -/
theorem cover (i : S8192x16.Idx) :
    ∃ t : Fin cfg0.N, (cfg0.win 5).flush t = true ∧ i ∈ ((cfg0.win 5).blk t).view.set := by
  have hi0 : (i 0).val < 8192 := (i 0).isLt
  have hi1 : (i 1).val < 16 := (i 1).isLt
  have hN : cfg0.N = 32 := N_0
  let t : Fin cfg0.N := ⟨(i 0).val / 256, by omega⟩
  obtain ⟨-, -, -, -, -, -, -, -, -, -, -, -, e0, e1⟩ := idx_facts t
  have ht : t.val = (i 0).val / 256 := rfl
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 16 ≤ (i 1).val ∧ (i 1).val < win0_5.index t (1 : Fin 2) * 16 + 16; rw [e1]; omega

/-- The region's result array ends holding every token's routing weights. -/
theorem final (c : Dev nD) : (dats m 0 c).arrAt 5 cfg0.N = allTokens m c :=
  (dats m 0 c).arrAt_eq_of_cover 5 (allTokens m c) (fun t _ => flushed_eq m c t) cover

/-! ## The host lines before the region: the inputs re-laid token-major -/

/-- The token-major query array is the query input re-laid. -/
theorem Qarr_eq (c : Dev nD) :
    Qarr m c = shapeCast S8192x16x256 (m ((c : Thread nD τ).loc main_arg1) : S4x2048x16x256.Idx → EReal) shapeCasts_S4x2048x16x256_S8192x16x256 := by
  show StableHlo.after hostOps0 (fun b => m (c, b)) (Proc.devRef .tc main_v0) = _
  after_results
  rfl

/-- The token-major key array is the key input re-laid. -/
theorem Karr_eq (c : Dev nD) :
    Karr m c = shapeCast S8192x16x256 (m ((c : Thread nD τ).loc main_arg2) : S4x2048x16x256.Idx → EReal) shapeCasts_S4x2048x16x256_S8192x16x256 := by
  show StableHlo.after hostOps0 (fun b => m (c, b)) (Proc.devRef .tc main_v1) = _
  after_results
  rfl

/-- The token-major gate array is the gate input re-laid. -/
theorem Garr_eq (c : Dev nD) :
    Garr m c = shapeCast S8192x16 (m ((c : Thread nD τ).loc main_arg0) : S4x2048x16x1.Idx → EReal) shapeCasts_S4x2048x16x1_S8192x16 := by
  show StableHlo.after hostOps0 (fun b => m (c, b)) (Proc.devRef .tc main_v2) = _
  after_results
  rfl

theorem WQarr_eq (c : Dev nD) : WQarr m c = (m ((c : Thread nD τ).loc main_arg3) : S256x64.Idx → EReal) := V_main_arg3 m c
theorem WKarr_eq (c : Dev nD) : WKarr m c = (m ((c : Thread nD τ).loc main_arg4) : S256x64.Idx → EReal) := V_main_arg4 m c

/-- Token b·2048 + s of the token-major query array is token (b, s) of the query input. -/
theorem Qarr_apply (c : Dev nD) (b : Fin 4) (s : Fin 2048) (n : Fin 8192) (hn : n.val = b.val * 2048 + s.val) (e : Fin 16) (d : Fin 256) :
    Qarr m c (ix3 n e d) = (m ((c : Thread nD τ).loc main_arg1) : S4x2048x16x256.Idx → EReal) (ix4 b s e d) := by
  rw [Qarr_eq]
  refine shapeCast_apply _ _ _ _ ?_
  show (S4x2048x16x256.rowMajor (ix4 b s e d)).val = (S8192x16x256.rowMajor (ix3 n e d)).val
  rewrite [Shape.rowMajor_val_four, Shape.rowMajor_val_three]
  show ((b.val * 2048 + s.val) * 16 + e.val) * 256 + d.val = (n.val * 16 + e.val) * 256 + d.val
  rw [hn]

/-- Token b·2048 + s of the token-major key array is token (b, s) of the key input. -/
theorem Karr_apply (c : Dev nD) (b : Fin 4) (s : Fin 2048) (n : Fin 8192) (hn : n.val = b.val * 2048 + s.val) (e : Fin 16) (d : Fin 256) :
    Karr m c (ix3 n e d) = (m ((c : Thread nD τ).loc main_arg2) : S4x2048x16x256.Idx → EReal) (ix4 b s e d) := by
  rw [Karr_eq]
  refine shapeCast_apply _ _ _ _ ?_
  show (S4x2048x16x256.rowMajor (ix4 b s e d)).val = (S8192x16x256.rowMajor (ix3 n e d)).val
  rewrite [Shape.rowMajor_val_four, Shape.rowMajor_val_three]
  show ((b.val * 2048 + s.val) * 16 + e.val) * 256 + d.val = (n.val * 16 + e.val) * 256 + d.val
  rw [hn]

/-- Token b·2048 + s of the token-major gate array is token (b, s) of the gate input. -/
theorem Garr_apply (c : Dev nD) (b : Fin 4) (s : Fin 2048) (n : Fin 8192) (hn : n.val = b.val * 2048 + s.val) (k : Fin 16) :
    Garr m c (ix2 n k) = (m ((c : Thread nD τ).loc main_arg0) : S4x2048x16x1.Idx → EReal) (ix4 b s k (0 : Fin 1)) := by
  rw [Garr_eq]
  refine shapeCast_apply _ _ _ _ ?_
  show (S4x2048x16x1.rowMajor (ix4 b s k (0 : Fin 1))).val = (S8192x16.rowMajor (ix2 n k)).val
  rewrite [Shape.rowMajor_val_four, Shape.rowMajor_val_two]
  show ((b.val * 2048 + s.val) * 16 + k.val) * 1 + 0 = n.val * 16 + k.val
  rw [hn]; omega

/-! ## The line after the region, and the run -/

/-- The program's result: every token's routing weights re-laid as [batch, position, expert]. -/
def result (c : Dev nD) : S4x2048x16.Idx → EReal :=
  shapeCast S4x2048x16 (allTokens m c) shapeCasts_S8192x16_S4x2048x16

/-- The line after the region leaves the result in its buffer. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  unfold result
  refine congrArg (fun x => shapeCast S4x2048x16 x shapeCasts_S8192x16_S4x2048x16) ?_
  exact (Pipeline.withArrays_arr spec0 launch0.win.arr_inj c _ _ 5).trans (final m c)

/-- At (b, s, e) the result is the routing weight of token (b, s) for expert e, from the inputs. -/
theorem result_apply (c : Dev nD) (b : Fin 4) (s : Fin 2048) (e : Fin 16) :
    result m c (ix3 b s e)
      = Cert.Router.route (fun e d => (m ((c : Thread nD τ).loc main_arg1) : S4x2048x16x256.Idx → EReal) (ix4 b s e d))
          (fun e d => (m ((c : Thread nD τ).loc main_arg2) : S4x2048x16x256.Idx → EReal) (ix4 b s e d))
          (fun k => (m ((c : Thread nD τ).loc main_arg0) : S4x2048x16x1.Idx → EReal) (ix4 b s k (0 : Fin 1)))
          (fun d a => (m ((c : Thread nD τ).loc main_arg3) : S256x64.Idx → EReal) (ix2 d a))
          (fun d a => (m ((c : Thread nD τ).loc main_arg4) : S256x64.Idx → EReal) (ix2 d a)) e := by
  have hb : b.val < 4 := b.isLt
  have hs : s.val < 2048 := s.isLt
  let n : Fin 8192 := ⟨b.val * 2048 + s.val, by omega⟩
  have hn : n.val = b.val * 2048 + s.val := rfl
  unfold result
  rw [shapeCast_apply (allTokens m c) shapeCasts_S8192x16_S4x2048x16 (ix3 b s e) (ix2 n e) (by
    rewrite [Shape.rowMajor_val_two, Shape.rowMajor_val_three]
    show n.val * 16 + e.val = (b.val * 2048 + s.val) * 16 + e.val
    rw [hn])]
  unfold allTokens tokens
  exact route_congr
    (funext fun e' => funext fun d => Qarr_apply m c b s n hn e' d)
    (funext fun e' => funext fun d => Karr_apply m c b s n hn e' d)
    (funext fun k => Garr_apply m c b s n hn k)
    (funext fun d => funext fun a => congrFun (WQarr_eq m c) (ix2 d a))
    (funext fun d => funext fun a => congrFun (WKarr_eq m c) (ix2 d a))
    rfl

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.ArrayValue

end
-- ==== Proof.RefStages.lean ====
/-
  The reference's result array read index by index: at batch b, position s, expert e it is the routing
  weight of the token (b, s), from that token's query rows, key rows and gate column and the two
  weight matrices.
-/
import proofs.«153119_j82197084111013_1_alg».proof.Proof.Gen.ReferenceIdeal.Run
import proofs.«153119_j82197084111013_1_alg».proof.Proof.Gen.ReferenceIdeal.Read
import proofs.«153119_j82197084111013_1_alg».proof.Proof.RouterSpec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The two projections and their inner product -/

section Stages

variable (x0 : (⟨S4x2048x16x1, .f32⟩ : BufTy).Contents (Elt Ideal))
  (x1 x2 : (⟨S4x2048x16x256, .f32⟩ : BufTy).Contents (Elt Ideal))
  (x3 x4 : (⟨S256x64, .f32⟩ : BufTy).Contents (Elt Ideal))

/-- The query projection at (b, s, e, a): the sum over the 256 inputs. -/
theorem projQ_apply (b : Fin 4) (s : Fin 2048) (e : Fin 16) (a : Fin 64) :
    val_main_v0 (F := Ideal) x1 x3 (ix4 b s e a)
      = Cert.Router.proj (fun e d => x1 (ix4 b s e d)) (fun d a => x3 (ix2 d a)) e a := by
  rw [val_main_v0_apply]
  refine Finset.sum_congr rfl fun k _ => ?_
  have el : lidx_main_v0 (ix4 b s e a) k = ix4 b s e k :=
    funext fun c => Fin.ext (by match c with | ⟨0, _⟩ => rfl | ⟨1, _⟩ => rfl | ⟨2, _⟩ => rfl | ⟨3, _⟩ => rfl)
  have er : ridx_main_v0 (ix4 b s e a) k = ix2 k a :=
    funext fun c => Fin.ext (by match c with | ⟨0, _⟩ => rfl | ⟨1, _⟩ => rfl)
  rw [el, er]

/-- The key projection at (b, s, e, a). -/
theorem projK_apply (b : Fin 4) (s : Fin 2048) (e : Fin 16) (a : Fin 64) :
    val_main_v1 (F := Ideal) x2 x4 (ix4 b s e a)
      = Cert.Router.proj (fun e d => x2 (ix4 b s e d)) (fun d a => x4 (ix2 d a)) e a := by
  rw [val_main_v1_apply]
  refine Finset.sum_congr rfl fun k _ => ?_
  have el : lidx_main_v1 (ix4 b s e a) k = ix4 b s e k :=
    funext fun c => Fin.ext (by match c with | ⟨0, _⟩ => rfl | ⟨1, _⟩ => rfl | ⟨2, _⟩ => rfl | ⟨3, _⟩ => rfl)
  have er : ridx_main_v1 (ix4 b s e a) k = ix2 k a :=
    funext fun c => Fin.ext (by match c with | ⟨0, _⟩ => rfl | ⟨1, _⟩ => rfl)
  rw [el, er]

/-- The inner product of query expert q's projection with key expert k's, at (b, s, q, k). -/
theorem score_apply (b : Fin 4) (s : Fin 2048) (q k : Fin 16) :
    val_main_v2 (F := Ideal) x1 x2 x3 x4 (ix4 b s q k)
      = Cert.Router.score (Cert.Router.proj (fun e d => x1 (ix4 b s e d)) (fun d a => x3 (ix2 d a)))
          (Cert.Router.proj (fun e d => x2 (ix4 b s e d)) (fun d a => x4 (ix2 d a))) q k := by
  rw [val_main_v2_apply]
  refine Finset.sum_congr rfl fun a _ => ?_
  have el : lidx_main_v2 (ix4 b s q k) a = ix4 b s q a :=
    funext fun c => Fin.ext (by match c with | ⟨0, _⟩ => rfl | ⟨1, _⟩ => rfl | ⟨2, _⟩ => rfl | ⟨3, _⟩ => rfl)
  have er : ridx_main_v2 (ix4 b s q k) a = ix4 b s k a :=
    funext fun c => Fin.ext (by match c with | ⟨0, _⟩ => rfl | ⟨1, _⟩ => rfl | ⟨2, _⟩ => rfl | ⟨3, _⟩ => rfl)
  rw [el, er, projQ_apply, projK_apply]

/-- The quotient by the root of 64 is the scaled similarity, at (b, s, q, k). -/
theorem sims_apply (b : Fin 4) (s : Fin 2048) (q k : Fin 16) :
    val_main_v5 (F := Ideal) x1 x2 x3 x4 (ix4 b s q k)
      = Cert.Router.sims (fun e d => x1 (ix4 b s e d)) (fun e d => x2 (ix4 b s e d))
          (fun d a => x3 (ix2 d a)) (fun d a => x4 (ix2 d a)) q k := by
  rw [val_main_v5_apply, val_main_v4_apply, val_main_v3_apply, val_main_cst_apply, score_apply]
  simp only [Ideal.hostDivf_def, Ideal.hostUnary_sqrt_def, Ideal.ofBits_def]
  exact Cert.Router.div_sqrt_sixtyfour _

end Stages

/-! ## The first softmax: over the key experts -/

section Softmax1

variable (x1 x2 : (⟨S4x2048x16x256, .f32⟩ : BufTy).Contents (Elt Ideal))
  (x3 x4 : (⟨S256x64, .f32⟩ : BufTy).Contents (Elt Ideal))

/-- The index over (b, s, q) with coordinate k inserted on the last axis. -/
theorem lift_last4 (h : S4x2048x16x16.Reduces [3] S4x2048x16) (b : Fin 4) (s : Fin 2048) (q : Fin 16)
    (k : Fin 16) :
    h.lift (ix3 b s q) k = ix4 b s q k :=
  funext fun c => Fin.ext (by match c with | ⟨0, _⟩ => rfl | ⟨1, _⟩ => rfl | ⟨2, _⟩ => rfl | ⟨3, _⟩ => rfl)

/-- The row maximum of the similarities of query expert q, at (b, s, q). -/
theorem rowMax1_apply (b : Fin 4) (s : Fin 2048) (q : Fin 16) :
    val_main_v8 (F := Ideal) x1 x2 x3 x4 (ix3 b s q)
      = Cert.Router.rowMax (Cert.Router.sims (fun e d => x1 (ix4 b s e d)) (fun e d => x2 (ix4 b s e d))
          (fun d a => x3 (ix2 d a)) (fun d a => x4 (ix2 d a)) q) := by
  have hr : S4x2048x16x16.Reduces [3] S4x2048x16 := by decide
  rw [val_main_v8_apply, val_main_v7_apply, val_main_cst_1_apply]
  unfold val_main_v6
  rw [Host.reduce_eq_fold_single FloatOps.maximumf _ _ reducesTo_S4x2048x16x16_S4x2048x16_d3 hr h_S_]
  have hrow : (val_main_v5 (F := Ideal) x1 x2 x3 x4 ∘ hr.lift (ix3 b s q))
      = Cert.Router.sims (fun e d => x1 (ix4 b s e d)) (fun e d => x2 (ix4 b s e d))
          (fun d a => x3 (ix2 d a)) (fun d a => x4 (ix2 d a)) q := by
    funext (k : Fin 16)
    show val_main_v5 (F := Ideal) x1 x2 x3 x4 (hr.lift (ix3 b s q) k) = _
    rw [lift_last4 hr b s q k, sims_apply]
  rw [hrow]
  rfl

end Softmax1

section Softmax1Rest

variable (x0 : (⟨S4x2048x16x1, .f32⟩ : BufTy).Contents (Elt Ideal))
  (x1 x2 : (⟨S4x2048x16x256, .f32⟩ : BufTy).Contents (Elt Ideal))
  (x3 x4 : (⟨S256x64, .f32⟩ : BufTy).Contents (Elt Ideal))

/-- The exponential of an entry's distance below its row maximum, at (b, s, q, k). -/
theorem exp1_apply (b : Fin 4) (s : Fin 2048) (q k : Fin 16) :
    val_main_v12 (F := Ideal) x1 x2 x3 x4 (ix4 b s q k)
      = Ideal.exp ((Cert.Router.sims (fun e d => x1 (ix4 b s e d)) (fun e d => x2 (ix4 b s e d))
          (fun d a => x3 (ix2 d a)) (fun d a => x4 (ix2 d a))) q k - Cert.Router.rowMax ((Cert.Router.sims (fun e d => x1 (ix4 b s e d)) (fun e d => x2 (ix4 b s e d))
          (fun d a => x3 (ix2 d a)) (fun d a => x4 (ix2 d a))) q)) := by
  have ei : idx_main_v9 (idx_main_v10 (ix4 b s q k)) = ix3 b s q :=
    funext fun c => Fin.ext (by match c with | ⟨0, _⟩ => rfl | ⟨1, _⟩ => rfl | ⟨2, _⟩ => rfl)
  rw [val_main_v12_apply, val_main_v11_apply, val_main_v10_apply, val_main_v9_apply, ei, rowMax1_apply,
    sims_apply]
  rfl

/-- The sum of a row's exponentials, at (b, s, q). -/
theorem sum1_apply (b : Fin 4) (s : Fin 2048) (q : Fin 16) :
    val_main_v13 (F := Ideal) x1 x2 x3 x4 (ix3 b s q)
      = ∑ j : Fin 16, Ideal.exp ((Cert.Router.sims (fun e d => x1 (ix4 b s e d)) (fun e d => x2 (ix4 b s e d))
          (fun d a => x3 (ix2 d a)) (fun d a => x4 (ix2 d a))) q j - Cert.Router.rowMax ((Cert.Router.sims (fun e d => x1 (ix4 b s e d)) (fun e d => x2 (ix4 b s e d))
          (fun d a => x3 (ix2 d a)) (fun d a => x4 (ix2 d a))) q)) := by
  rw [val_main_v13_apply, val_main_cst_2_apply, Ideal.ofBits_def, Ideal.ofBits_zero_f32, zero_add]
  refine Finset.sum_congr rfl fun j _ => ?_
  have ei : idx_main_v13 (ix3 b s q) j = ix4 b s q j :=
    funext fun c => Fin.ext (by match c with | ⟨0, _⟩ => rfl | ⟨1, _⟩ => rfl | ⟨2, _⟩ => rfl | ⟨3, _⟩ => rfl)
  rw [ei, exp1_apply]

/-- The first softmax, at (b, s, q, k): query expert q's weight on key expert k. -/
theorem softmax1_apply (b : Fin 4) (s : Fin 2048) (q k : Fin 16) :
    val_main_v16 (F := Ideal) x1 x2 x3 x4 (ix4 b s q k)
      = Cert.Router.softmax ((Cert.Router.sims (fun e d => x1 (ix4 b s e d)) (fun e d => x2 (ix4 b s e d))
          (fun d a => x3 (ix2 d a)) (fun d a => x4 (ix2 d a))) q) k := by
  have ei : idx_main_v14 (idx_main_v15 (ix4 b s q k)) = ix3 b s q :=
    funext fun c => Fin.ext (by match c with | ⟨0, _⟩ => rfl | ⟨1, _⟩ => rfl | ⟨2, _⟩ => rfl)
  rw [val_main_v16_apply, val_main_v15_apply, val_main_v14_apply, ei, sum1_apply, exp1_apply]
  rfl

/-! ## The gate averaged under the weights -/

/-- The gate contraction and its reshape, at (b, s, q). -/
theorem gated_apply (b : Fin 4) (s : Fin 2048) (q : Fin 16) :
    val_main_v18 (F := Ideal) x0 x1 x2 x3 x4 (ix3 b s q)
      = Cert.Router.gated (Cert.Router.sims (fun e d => x1 (ix4 b s e d)) (fun e d => x2 (ix4 b s e d))
          (fun d a => x3 (ix2 d a)) (fun d a => x4 (ix2 d a))) (fun k => x0 (ix4 b s k (0 : Fin 1))) q := by
  have ei : idx_main_v18 (ix3 b s q) = ix4 b s q (0 : Fin 1) :=
    funext fun c => Fin.ext (by
      have hb := b.isLt; have hs := s.isLt; have hq := q.isLt
      match c with
      | ⟨0, _⟩ => show ((b.val * 2048 + s.val) * 16 + q.val) / 32768 = b.val; omega
      | ⟨1, _⟩ => show ((b.val * 2048 + s.val) * 16 + q.val) / 16 % 2048 = s.val; omega
      | ⟨2, _⟩ => show ((b.val * 2048 + s.val) * 16 + q.val) / 1 % 16 = q.val; omega
      | ⟨3, _⟩ => rfl)
  rw [val_main_v18_apply, ei, val_main_v17_apply]
  refine Finset.sum_congr rfl fun k _ => ?_
  have el : lidx_main_v17 (ix4 b s q (0 : Fin 1)) k = ix4 b s q k :=
    funext fun c => Fin.ext (by match c with | ⟨0, _⟩ => rfl | ⟨1, _⟩ => rfl | ⟨2, _⟩ => rfl | ⟨3, _⟩ => rfl)
  have er : ridx_main_v17 (ix4 b s q (0 : Fin 1)) k = ix4 b s k (0 : Fin 1) :=
    funext fun c => Fin.ext (by match c with | ⟨0, _⟩ => rfl | ⟨1, _⟩ => rfl | ⟨2, _⟩ => rfl | ⟨3, _⟩ => rfl)
  rw [el, er, softmax1_apply]

end Softmax1Rest

/-! ## The second softmax: over the sixteen averages -/

section Softmax2

variable (x0 : (⟨S4x2048x16x1, .f32⟩ : BufTy).Contents (Elt Ideal))
  (x1 x2 : (⟨S4x2048x16x256, .f32⟩ : BufTy).Contents (Elt Ideal))
  (x3 x4 : (⟨S256x64, .f32⟩ : BufTy).Contents (Elt Ideal))

/-- The index over (b, s) with coordinate k inserted on the last axis. -/
theorem lift_last3 (h : S4x2048x16.Reduces [2] S4x2048) (b : Fin 4) (s : Fin 2048) (k : Fin 16) :
    h.lift (ix2 b s) k = ix3 b s k :=
  funext fun c => Fin.ext (by match c with | ⟨0, _⟩ => rfl | ⟨1, _⟩ => rfl | ⟨2, _⟩ => rfl)

/-- The maximum of the token's sixteen averages, at (b, s). -/
theorem rowMax2_apply (b : Fin 4) (s : Fin 2048) :
    val_main_v21 (F := Ideal) x0 x1 x2 x3 x4 (ix2 b s)
      = Cert.Router.rowMax (Cert.Router.gated (Cert.Router.sims (fun e d => x1 (ix4 b s e d)) (fun e d => x2 (ix4 b s e d))
          (fun d a => x3 (ix2 d a)) (fun d a => x4 (ix2 d a))) (fun k => x0 (ix4 b s k (0 : Fin 1)))) := by
  have hr : S4x2048x16.Reduces [2] S4x2048 := by decide
  rw [val_main_v21_apply, val_main_v20_apply, val_main_cst_4_apply]
  unfold val_main_v19
  rw [Host.reduce_eq_fold_single FloatOps.maximumf _ _ reducesTo_S4x2048x16_S4x2048_d2 hr h_S_]
  have hrow : (val_main_v18 (F := Ideal) x0 x1 x2 x3 x4 ∘ hr.lift (ix2 b s))
      = (Cert.Router.gated (Cert.Router.sims (fun e d => x1 (ix4 b s e d)) (fun e d => x2 (ix4 b s e d))
          (fun d a => x3 (ix2 d a)) (fun d a => x4 (ix2 d a))) (fun k => x0 (ix4 b s k (0 : Fin 1)))) := by
    funext (k : Fin 16)
    show val_main_v18 (F := Ideal) x0 x1 x2 x3 x4 (hr.lift (ix2 b s) k) = _
    rw [lift_last3 hr b s k, gated_apply]
  rw [hrow]
  rfl

/-- The exponential of an average's distance below the maximum, at (b, s, e). -/
theorem exp2_apply (b : Fin 4) (s : Fin 2048) (e : Fin 16) :
    val_main_v25 (F := Ideal) x0 x1 x2 x3 x4 (ix3 b s e)
      = Ideal.exp ((Cert.Router.gated (Cert.Router.sims (fun e d => x1 (ix4 b s e d)) (fun e d => x2 (ix4 b s e d))
          (fun d a => x3 (ix2 d a)) (fun d a => x4 (ix2 d a))) (fun k => x0 (ix4 b s k (0 : Fin 1)))) e - Cert.Router.rowMax (Cert.Router.gated (Cert.Router.sims (fun e d => x1 (ix4 b s e d)) (fun e d => x2 (ix4 b s e d))
          (fun d a => x3 (ix2 d a)) (fun d a => x4 (ix2 d a))) (fun k => x0 (ix4 b s k (0 : Fin 1))))) := by
  have ei : idx_main_v22 (idx_main_v23 (ix3 b s e)) = ix2 b s :=
    funext fun c => Fin.ext (by match c with | ⟨0, _⟩ => rfl | ⟨1, _⟩ => rfl)
  rw [val_main_v25_apply, val_main_v24_apply, val_main_v23_apply, val_main_v22_apply, ei, rowMax2_apply,
    gated_apply]
  rfl

/-- The sum of the token's sixteen exponentials, at (b, s). -/
theorem sum2_apply (b : Fin 4) (s : Fin 2048) :
    val_main_v26 (F := Ideal) x0 x1 x2 x3 x4 (ix2 b s)
      = ∑ j : Fin 16, Ideal.exp ((Cert.Router.gated (Cert.Router.sims (fun e d => x1 (ix4 b s e d)) (fun e d => x2 (ix4 b s e d))
          (fun d a => x3 (ix2 d a)) (fun d a => x4 (ix2 d a))) (fun k => x0 (ix4 b s k (0 : Fin 1)))) j - Cert.Router.rowMax (Cert.Router.gated (Cert.Router.sims (fun e d => x1 (ix4 b s e d)) (fun e d => x2 (ix4 b s e d))
          (fun d a => x3 (ix2 d a)) (fun d a => x4 (ix2 d a))) (fun k => x0 (ix4 b s k (0 : Fin 1))))) := by
  rw [val_main_v26_apply, val_main_cst_5_apply, Ideal.ofBits_def, Ideal.ofBits_zero_f32, zero_add]
  refine Finset.sum_congr rfl fun j _ => ?_
  have ei : idx_main_v26 (ix2 b s) j = ix3 b s j :=
    funext fun c => Fin.ext (by match c with | ⟨0, _⟩ => rfl | ⟨1, _⟩ => rfl | ⟨2, _⟩ => rfl)
  rw [ei, exp2_apply]

end Softmax2

theorem reference_apply (x0 : (⟨S4x2048x16x1, .f32⟩ : BufTy).Contents (Elt Ideal))
    (x1 x2 : (⟨S4x2048x16x256, .f32⟩ : BufTy).Contents (Elt Ideal))
    (x3 x4 : (⟨S256x64, .f32⟩ : BufTy).Contents (Elt Ideal)) (b : Fin 4) (s : Fin 2048) (e : Fin 16) :
    val_main_v29 (F := Ideal) x0 x1 x2 x3 x4 (ix3 b s e)
      = Cert.Router.route (fun e d => x1 (ix4 b s e d)) (fun e d => x2 (ix4 b s e d))
          (fun k => x0 (ix4 b s k (0 : Fin 1))) (fun d a => x3 (ix2 d a)) (fun d a => x4 (ix2 d a)) e := by
  have ei : idx_main_v27 (idx_main_v28 (ix3 b s e)) = ix2 b s :=
    funext fun c => Fin.ext (by match c with | ⟨0, _⟩ => rfl | ⟨1, _⟩ => rfl)
  rw [val_main_v29_apply, val_main_v28_apply, val_main_v27_apply, ei, sum2_apply, exp2_apply]
  rfl

end Cert.ReferenceIdeal.RefValue

end
-- ==== Proof.lean ====
/-
  The routing weights of an attention-style expert router, computed two ways, are one function of the
  inputs over the extended reals.

  For each of the 4 × 2048 tokens both programs project the token's sixteen query rows and sixteen key
  rows to 64 attention coordinates, take the 16 × 16 inner products scaled by one eighth, turn each
  query expert's row into softmax weights, average the token's gate vector under them, and take a
  softmax of the sixteen averages. The kernel does it on token-major copies of the inputs, 256 tokens
  per grid point, multiplying the inner products by the word 1/8; the reference does it on the inputs
  as given, dividing by the square root of the word 64. That root is the real 8, and dividing by 8 is
  multiplying by 1/8 on every extended real, so no finiteness of the inputs is used: sums are only
  re-indexed, and every other operation is the same operation on both sides.

  The one-token arithmetic is Proof/RouterSpec.lean. The kernel body's stored value at a row of a block is
  the routing weight of that block's token (Proof/BodyTerms, BodySims, BodySoftmax, BodyValue); the 32
  blocks tile the region's result array, and the re-layouts around the region are read at an index by
  row-major positions (Proof/KernelArray.lean). The reference's stages read at an index give the same
  routing weight (Proof/RefStages.lean). The kernel's idealization rewrote nothing.
-/
import proofs.«153119_j82197084111013_1_alg».proof.Defs
import proofs.«153119_j82197084111013_1_alg».proof.Proof.Gen.Kernel
import proofs.«153119_j82197084111013_1_alg».proof.Proof.Gen.Kernel.Skeleton
import proofs.«153119_j82197084111013_1_alg».proof.Proof.Gen.Kernel.Launch
import proofs.«153119_j82197084111013_1_alg».proof.Proof.Gen.Kernel.Points
import proofs.«153119_j82197084111013_1_alg».proof.Proof.Gen.Kernel.Frame
import proofs.«153119_j82197084111013_1_alg».proof.Proof.Gen.KernelIdeal
import proofs.«153119_j82197084111013_1_alg».proof.Proof.Gen.KernelIdeal.Skeleton
import proofs.«153119_j82197084111013_1_alg».proof.Proof.Gen.KernelIdeal.Launch
import proofs.«153119_j82197084111013_1_alg».proof.Proof.Gen.KernelIdeal.Points
import proofs.«153119_j82197084111013_1_alg».proof.Proof.Gen.KernelIdeal.Frame
import proofs.«153119_j82197084111013_1_alg».proof.Proof.Gen.ReferenceIdeal
import proofs.«153119_j82197084111013_1_alg».proof.Proof.Gen.ReferenceIdeal.Run
import proofs.«153119_j82197084111013_1_alg».proof.Proof.Gen.ReferenceIdeal.Read
import proofs.«153119_j82197084111013_1_alg».proof.Proof.Gen.Pre_finite_inputs
import proofs.«153119_j82197084111013_1_alg».proof.Proof.KernelArray
import proofs.«153119_j82197084111013_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result of the kernel's inputs is the kernel's result: at (b, s, e) both are the
    routing weight of token (b, s) for expert e. -/
theorem values_agree (m : (ℓ : Loc Cert.KernelIdeal.nD Cert.KernelIdeal.τ Cert.KernelIdeal.sig) → Buf (Elt Ideal) ℓ) (c : Dev Cert.KernelIdeal.nD) :
    Cert.ReferenceIdeal.Read.val_main_v29 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.ArrayValue.result m c := by
  funext (i : Cert.KernelIdeal.S4x2048x16.Idx)
  obtain ⟨b, s, e, rfl⟩ : ∃ (b : Fin 4) (s : Fin 2048) (e : Fin 16), i = ix3 b s e := ⟨i 0, i 1, i 2, eq_ix3 i⟩
  exact (Cert.ReferenceIdeal.RefValue.reference_apply _ _ _ _ _ b s e).trans
    (Cert.KernelIdeal.ArrayValue.result_apply m c b s e).symm

/-- From memories agreeing on the inputs both programs end with the same result array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1, (hagree c).2.2.2.2]
  exact values_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
